-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  main_v38

def fn_part1 {F : FTy → Type} [FloatOps F] (main_arg5 : FVec F S128x128 .f32) (main_arg6 : FVec F S128x64 .f32) (main_arg7 : FVec F S64 .f32) (main_arg8 : FVec F S128x64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x800000 32) (main_arg2 : FVec F S50000x128 .f32) (main_arg3 : FVec F S128x128 .f32) (main_arg4 : FVec F S128 .f32) (main_arg5 : FVec F S128x128 .f32) (main_arg6 : FVec F S128x64 .f32) (main_arg7 : FVec F S64 .f32) (main_arg8 : FVec F S128x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg2
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S2000x128 : Shape := ⟨2, ![2000, 128]⟩
abbrev S1x128 : Shape := ⟨2, ![1, 128]⟩
abbrev S50000x64 : Shape := ⟨2, ![50000, 64]⟩
abbrev S2000x64 : Shape := ⟨2, ![2000, 64]⟩
abbrev S1x64 : Shape := ⟨2, ![1, 64]⟩
abbrev S2000 : Shape := ⟨1, ![2000]⟩
abbrev S2000x1 : Shape := ⟨2, ![2000, 1]⟩

abbrev nBuf : Space → Nat
  | .hbm => 55
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000x1, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .f32⟩
  | .hbm, ⟨32, _⟩ => ⟨S_, .f32⟩
  | .hbm, ⟨33, _⟩ => ⟨S50000x128, .f32⟩
  | .hbm, ⟨34, _⟩ => ⟨S800000x1, .i32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S50000x128, .f32⟩
  | .hbm, ⟨53, _⟩ => ⟨S50000x128, .f32⟩
  | .hbm, ⟨54, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S128x64, .f32⟩
  | .local _ .vmem, ⟨16, _⟩ => ⟨S64, .f32⟩
  | .local _ .vmem, ⟨17, _⟩ => ⟨S128x64, .f32⟩
  | .local _ .vmem, ⟨18, _⟩ => ⟨S2000x64, .f32⟩
  | .local _ .vmem, ⟨19, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S50000x64.size a
  hwx1_5 : ∀ i : grid1.Coords, EltTy.bits .f32 = 32 ∨ (Rect.block (s := S50000x64) S2000x64.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S2000x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v23) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v35) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 94
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S_, .f32⟩
  | .hbm, ⟨27, _⟩ => ⟨S800000, .f32⟩
  | .hbm, ⟨28, _⟩ => ⟨S_, .f32⟩
  | .hbm, ⟨29, _⟩ => ⟨S50000, .f32⟩
  | .hbm, ⟨30, _⟩ => ⟨S800000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S50000x128, .f32⟩
  | .hbm, ⟨46, _⟩ => ⟨S50000x128, .f32⟩
  | .hbm, ⟨47, _⟩ => ⟨S50000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S_, .f32⟩
  | .hbm, ⟨62, _⟩ => ⟨S800000, .f32⟩
  | .hbm, ⟨63, _⟩ => ⟨S_, .f32⟩
  | .hbm, ⟨64, _⟩ => ⟨S50000, .f32⟩
  | .hbm, ⟨65, _⟩ => ⟨S800000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S50000x64, .f32⟩
  | .hbm, ⟨74, _⟩ => ⟨S1x64, .f32⟩
  | .hbm, ⟨75, _⟩ => ⟨S50000x64, .f32⟩
  | .hbm, ⟨76, _⟩ => ⟨S50000x64, .f32⟩
  | .hbm, ⟨77, _⟩ => ⟨S50000x64, .f32⟩
  | .hbm, ⟨78, _⟩ => ⟨S50000x64, .f32⟩
  | .hbm, ⟨79, _⟩ => ⟨S_, .f32⟩
  | .hbm, ⟨80, _⟩ => ⟨S50000, .f32⟩
  | .hbm, ⟨81, _⟩ => ⟨S_, .f32⟩
  | .hbm, ⟨82, _⟩ => ⟨S50000, .f32⟩
  | .hbm, ⟨83, _⟩ => ⟨S50000, .f32⟩
  | .hbm, ⟨84, _⟩ => ⟨S50000x1, .f32⟩
  | .hbm, ⟨85, _⟩ => ⟨S50000x64, .f32⟩
  | .hbm, ⟨86, _⟩ => ⟨S50000x64, .f32⟩
  | .hbm, ⟨87, _⟩ => ⟨S50000x64, .f32⟩
  | .hbm, ⟨88, _⟩ => ⟨S_, .f32⟩
  | .hbm, ⟨89, _⟩ => ⟨S50000, .f32⟩
  | .hbm, ⟨90, _⟩ => ⟨S50000x1, .f32⟩
  | .hbm, ⟨91, _⟩ => ⟨S50000x1, .f32⟩
  | .hbm, ⟨92, _⟩ => ⟨S50000x64, .f32⟩
  | .hbm, ⟨93, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_cst : Ref sig .tc := ⟨.hbm, 44, rfl⟩
abbrev main_call0_v0 : Ref sig .tc := ⟨.hbm, 45, rfl⟩
abbrev main_v29 : Ref sig .tc := ⟨.hbm, 46, rfl⟩
abbrev main_v30 : Ref sig .tc := ⟨.hbm, 47, rfl⟩
abbrev main_c_4 : Ref sig .tc := ⟨.hbm, 48, rfl⟩
abbrev main_v31 : Ref sig .tc := ⟨.hbm, 49, rfl⟩
abbrev main_v32 : Ref sig .tc := ⟨.hbm, 50, rfl⟩
abbrev main_c_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call1_cst : Ref sig .tc := ⟨.hbm, 79, rfl⟩
abbrev main_call1_v0 : Ref sig .tc := ⟨.hbm, 80, rfl⟩
abbrev main_call1_cst_0 : Ref sig .tc := ⟨.hbm, 81, rfl⟩
abbrev main_call1_v1 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_call1_v5 : Ref sig .tc := ⟨.hbm, 86, rfl⟩
abbrev main_call1_v6 : Ref sig .tc := ⟨.hbm, 87, rfl⟩
abbrev main_call1_cst_1 : Ref sig .tc := ⟨.hbm, 88, rfl⟩
abbrev main_call1_v7 : Ref sig .tc := ⟨.hbm, 89, rfl⟩
abbrev main_call1_v8 : Ref sig .tc := ⟨.hbm, 90, rfl⟩
abbrev main_call1_v9 : Ref sig .tc := ⟨.hbm, 91, rfl⟩
abbrev main_call1_v10 : Ref sig .tc := ⟨.hbm, 92, rfl⟩
abbrev main_v56 : Ref sig .tc := ⟨.hbm, 93, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000x1_S50000x64_0_1 : S50000x1.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Aggregate.lean ====
/-
  The host stretches of the kernel's program. Before each region the host gathers the source node's row for every edge,
  adds the gathered rows into their destination nodes, and divides each node's row by its in-degree clamped below at
  one: the mean of a node's in-neighbours' rows. The gather and the scatter-add stay closed here: the aggregation is one
  function `agg e X` of the edge list and the feature array, and both layers apply the same one (the degree column is
  computed once and reused). What the two regions find in their windows' arrays is then: the aggregation of the
  features and the arguments as launched (region 0); the aggregation of region 0's output, that output, and the
  arguments as launched (region 1).
-/
import proofs.«118168_j23656679866485_1_alg».proof.Proof.Gen.KernelIdeal.Frame
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem Idealize.ShloMosaic.StableHlo

variable {F : FTy → Type} [FloatOps F]

/-- Each edge's source node: row 0 of the edge list. -/
def src (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- Each edge's destination node: row 1 of the edge list. -/
def dst (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- Every node's in-degree (a one added per edge into its destination), clamped below at one, as a column. -/
def degCol (e : (⟨S2x800000, .i32⟩ : BufTy).Contents (Elt F)) : (⟨S50000x1, .f32⟩ : BufTy).Contents (Elt F) :=
  broadcastInDim S50000x1 ![0] bcast_S50000_S50000x1_0
    (maximumf
      (Host.scatterAdd scatter_S50000_S800000x1_S800000_n_0_0_1
        (broadcastInDim S50000 ![] bcast_S_S50000 (constant (F := F) S_ .f32 0x00000000#32))
        (broadcastInDim S800000x1 ![0] bcast_S800000_S800000x1_0 (dst (F := F) e))
        (broadcastInDim S800000 ![] bcast_S_S800000 (constant (F := F) S_ .f32 0x3F800000#32)))
      (broadcastInDim S50000 ![] bcast_S_S50000 (constant (F := F) S_ .f32 0x3F800000#32)))

/-- The source indices as the gather takes them: a negative index wrapped by the number of nodes. -/
def wrappedSrc (e : (⟨S2x800000, .i32⟩ : BufTy).Contents (Elt F)) : (⟨S800000x1, .i32⟩ : BufTy).Contents (Elt F) :=
  broadcastInDim S800000x1 ![0] bcast_S800000_S800000x1_0
    (select (cmpi .slt (src (F := F) e) (broadcastInDim S800000 ![] bcast_S_S800000 (constantI S_ 32 0#32)))
      (addi (src (F := F) e) (broadcastInDim S800000 ![] bcast_S_S800000 (constantI S_ 32 50000#32)))
      (src (F := F) e))

/-- The mean aggregation of a feature array along the edges: gathered source rows added into their destinations,
    divided by the clamped in-degree. -/
def agg (e : (⟨S2x800000, .i32⟩ : BufTy).Contents (Elt F)) (X : (⟨S50000x128, .f32⟩ : BufTy).Contents (Elt F)) :
    (⟨S50000x128, .f32⟩ : BufTy).Contents (Elt F) :=
  Host.divf
    (Host.scatterAdd scatter_S50000x128_S800000x1_S800000x128_1_0_0_1
      (broadcastInDim S50000x128 ![] bcast_S_S50000x128 (constant (F := F) S_ .f32 0x00000000#32))
      (broadcastInDim S800000x1 ![0] bcast_S800000_S800000x1_0 (dst (F := F) e))
      (Host.gather gather_S50000x128_S800000x1_S800000x128_1_0_n_n_0_1_1128 X (wrappedSrc (F := F) e)))
    (broadcastInDim S50000x128 ![0, 1] bcast_S50000x1_S50000x128_0_1 (degCol (F := F) e))

variable (m : (ℓ : Loc nD τ sig) → Buf (Elt F) ℓ) (ρ : Dev nD → PrngReg)

/-! ## Before region 0 -/

set_option maxHeartbeats 4000000 in
/-- Region 0's first window reads the aggregation of the features. -/
theorem entry0_mean (c : Dev nD) :
    V1 m ρ c main_v22 = agg (m ((c : Thread nD τ).loc main_arg1)) (m ((c : Thread nD τ).loc main_arg0)) := by
  dsimp only [V1, W1, hostOps0]
  after_results_simp
  rfl

set_option maxHeartbeats 4000000 in
theorem entry0_src (c : Dev nD) : W1 m ρ c (Proc.devRef .tc main_v1) = src (m ((c : Thread nD τ).loc main_arg1)) := by
  dsimp only [W1, hostOps0]
  after_results_simp
  rfl

set_option maxHeartbeats 4000000 in
theorem entry0_dst (c : Dev nD) : W1 m ρ c (Proc.devRef .tc main_v3) = dst (m ((c : Thread nD τ).loc main_arg1)) := by
  dsimp only [W1, hostOps0]
  after_results_simp
  rfl

set_option maxHeartbeats 4000000 in
theorem entry0_deg (c : Dev nD) : W1 m ρ c (Proc.devRef .tc main_v10) = degCol (m ((c : Thread nD τ).loc main_arg1)) := by
  dsimp only [W1, hostOps0]
  after_results_simp
  rfl

/-- No host operation before region 0 writes argument 0. -/
theorem entry0_arg0 (c : Dev nD) : W1 m ρ c (Proc.devRef .tc main_arg0) = m ((c : Thread nD τ).loc main_arg0) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg0) = W0 m ρ c (Proc.devRef .tc main_arg0))

/-- No host operation before region 0 writes argument 1. -/
theorem entry0_arg1 (c : Dev nD) : W1 m ρ c (Proc.devRef .tc main_arg1) = m ((c : Thread nD τ).loc main_arg1) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg1) = W0 m ρ c (Proc.devRef .tc main_arg1))

/-- No host operation before region 0 writes argument 2. -/
theorem entry0_arg2 (c : Dev nD) : W1 m ρ c (Proc.devRef .tc main_arg2) = m ((c : Thread nD τ).loc main_arg2) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg2) = W0 m ρ c (Proc.devRef .tc main_arg2))

/-- No host operation before region 0 writes argument 3. -/
theorem entry0_arg3 (c : Dev nD) : W1 m ρ c (Proc.devRef .tc main_arg3) = m ((c : Thread nD τ).loc main_arg3) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg3) = W0 m ρ c (Proc.devRef .tc main_arg3))

/-- No host operation before region 0 writes argument 4. -/
theorem entry0_arg4 (c : Dev nD) : W1 m ρ c (Proc.devRef .tc main_arg4) = m ((c : Thread nD τ).loc main_arg4) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg4) = W0 m ρ c (Proc.devRef .tc main_arg4))

/-- No host operation before region 0 writes argument 5. -/
theorem entry0_arg5 (c : Dev nD) : W1 m ρ c (Proc.devRef .tc main_arg5) = m ((c : Thread nD τ).loc main_arg5) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg5) = W0 m ρ c (Proc.devRef .tc main_arg5))

/-- No host operation before region 0 writes argument 6. -/
theorem entry0_arg6 (c : Dev nD) : W1 m ρ c (Proc.devRef .tc main_arg6) = m ((c : Thread nD τ).loc main_arg6) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg6) = W0 m ρ c (Proc.devRef .tc main_arg6))

/-- No host operation before region 0 writes argument 7. -/
theorem entry0_arg7 (c : Dev nD) : W1 m ρ c (Proc.devRef .tc main_arg7) = m ((c : Thread nD τ).loc main_arg7) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg7) = W0 m ρ c (Proc.devRef .tc main_arg7))

/-- No host operation before region 0 writes argument 8. -/
theorem entry0_arg8 (c : Dev nD) : W1 m ρ c (Proc.devRef .tc main_arg8) = m ((c : Thread nD τ).loc main_arg8) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg8) = W0 m ρ c (Proc.devRef .tc main_arg8))

/-! ## Between the regions -/

/-- Region 0 leaves every buffer that is not one of its windows' arrays as it found it; the ones the second stretch
    reads: the edge endpoints, the degree column and the last three arguments. -/
theorem exit0_src (c : Dev nD) : W2 m ρ c (Proc.devRef .tc main_v1) = src (m ((c : Thread nD τ).loc main_arg1)) :=
  (W2_of_ne m ρ c main_v1 (by decide)).trans (entry0_src m ρ c)
theorem exit0_dst (c : Dev nD) : W2 m ρ c (Proc.devRef .tc main_v3) = dst (m ((c : Thread nD τ).loc main_arg1)) :=
  (W2_of_ne m ρ c main_v3 (by decide)).trans (entry0_dst m ρ c)
theorem exit0_deg (c : Dev nD) : W2 m ρ c (Proc.devRef .tc main_v10) = degCol (m ((c : Thread nD τ).loc main_arg1)) :=
  (W2_of_ne m ρ c main_v10 (by decide)).trans (entry0_deg m ρ c)
theorem exit0_arg6 (c : Dev nD) : W2 m ρ c (Proc.devRef .tc main_arg6) = m ((c : Thread nD τ).loc main_arg6) :=
  (W2_of_ne m ρ c main_arg6 (by decide)).trans (entry0_arg6 m ρ c)
theorem exit0_arg7 (c : Dev nD) : W2 m ρ c (Proc.devRef .tc main_arg7) = m ((c : Thread nD τ).loc main_arg7) :=
  (W2_of_ne m ρ c main_arg7 (by decide)).trans (entry0_arg7 m ρ c)
theorem exit0_arg8 (c : Dev nD) : W2 m ρ c (Proc.devRef .tc main_arg8) = m ((c : Thread nD τ).loc main_arg8) :=
  (W2_of_ne m ρ c main_arg8 (by decide)).trans (entry0_arg8 m ρ c)

set_option maxHeartbeats 4000000 in
/-- Region 1's first window reads the aggregation of region 0's output array. -/
theorem entry1_mean (c : Dev nD) :
    V3 m ρ c main_v35 = agg (m ((c : Thread nD τ).loc main_arg1)) (W2 m ρ c (Proc.devRef .tc main_v23)) := by
  dsimp only [V3, W3, hostOps1]
  after_results_simp
  rw [exit0_src, exit0_dst, exit0_deg]
  rfl

/-- Region 1's second window reads region 0's output array: the second stretch does not write it. -/
theorem entry1_hidden (c : Dev nD) : V3 m ρ c main_v23 = W2 m ρ c (Proc.devRef .tc main_v23) :=
  (StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps1 (W2 m ρ c) (Proc.devRef .tc main_v23) = W2 m ρ c (Proc.devRef .tc main_v23))

theorem entry1_arg6 (c : Dev nD) : V3 m ρ c main_arg6 = m ((c : Thread nD τ).loc main_arg6) :=
  ((StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps1 (W2 m ρ c) (Proc.devRef .tc main_arg6) = W2 m ρ c (Proc.devRef .tc main_arg6))).trans (exit0_arg6 m ρ c)

theorem entry1_arg7 (c : Dev nD) : V3 m ρ c main_arg7 = m ((c : Thread nD τ).loc main_arg7) :=
  ((StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps1 (W2 m ρ c) (Proc.devRef .tc main_arg7) = W2 m ρ c (Proc.devRef .tc main_arg7))).trans (exit0_arg7 m ρ c)

theorem entry1_arg8 (c : Dev nD) : V3 m ρ c main_arg8 = m ((c : Thread nD τ).loc main_arg8) :=
  ((StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps1 (W2 m ρ c) (Proc.devRef .tc main_arg8) = W2 m ρ c (Proc.devRef .tc main_arg8))).trans (exit0_arg8 m ρ c)

end Cert.KernelIdeal.Hand

end
-- ==== Proof.Spec.lean ====
/-
  The two GraphSAGE layers as mathematics on the extended reals, one output entry at a time.

  A node `r` carries two rows of `d` numbers: `mr`, the mean of its in-neighbours' features, and `xr`, its own
  features. The linear stage sends them to the row `j ↦ Σ_k mr k · Wl k j + Σ_k xr k · Wr k j + b j`. Layer one takes
  the positive part of that entry and multiplies by the dropout mask's entry; layer two takes the row's log-softmax,
  `(y j − M) − log Σ_j' exp (y j' − M)` with `M` the row's maximum.

  The only algebra between the two programs is the ORDER of the three summands of the linear stage (the two products
  first and then the bias, against one product, the bias, and then the other product): addition on the extended reals
  is commutative and associative at the infinities too, so no finiteness is needed.
-/
import Idealize.ShloMosaic.PureOps.Ideal.Laws
import Idealize.ShloMosaic.Lib.ValueIdx

noncomputable section

open Idealize.ShloMosaic Idealize.ShloMosaic.ValueIdx

namespace Cert.Sage

/-- The pattern of `-inf` denotes the bottom extended real. -/
theorem negInf_f32 : Ideal.ofBits .f32 0xFF800000#32 = (⊥ : EReal) := by simp [Ideal.ofBits, Ideal.ieee]

variable {d e : Nat}

/-- One entry of the linear stage: both products summed over the `d` features, then the bias. -/
def lin (mr xr : Fin d → EReal) (Wl Wr : (⟨2, ![d, e]⟩ : Shape).Idx → EReal) (b : (⟨1, ![e]⟩ : Shape).Idx → EReal)
    (j : Fin e) : EReal :=
  (∑ k : Fin d, mr k * Wl (ix2 k j) + ∑ k : Fin d, xr k * Wr (ix2 k j)) + b (ix1 j)

/-- The same entry with the bias added between the two products: addition only commutes and reassociates. -/
theorem lin_bias_between (mr xr : Fin d → EReal) (Wl Wr : (⟨2, ![d, e]⟩ : Shape).Idx → EReal)
    (b : (⟨1, ![e]⟩ : Shape).Idx → EReal) (j : Fin e) :
    (∑ k : Fin d, mr k * Wl (ix2 k j) + b (ix1 j)) + ∑ k : Fin d, xr k * Wr (ix2 k j) = lin mr xr Wl Wr b j :=
  add_right_comm _ _ _

/-- Layer one's entry: the positive part of the linear stage, times the mask's entry `kq`. -/
def hidden (mr xr : Fin d → EReal) (Wl Wr : (⟨2, ![d, e]⟩ : Shape).Idx → EReal) (b : (⟨1, ![e]⟩ : Shape).Idx → EReal)
    (kq : EReal) (j : Fin e) : EReal :=
  max (lin mr xr Wl Wr b j) 0 * kq

/-- A row's maximum, folded from the bottom element. -/
def rowMax (y : Fin e → EReal) : EReal := (Finset.univ : Finset (Fin e)).fold max ⊥ y

/-- Taking the maximum with the bottom element once more changes nothing. -/
theorem bot_max_rowMax (y : Fin e → EReal) : max ⊥ (rowMax y) = rowMax y := max_eq_right bot_le

/-- A row's log-softmax at entry `j`: the shifted entry minus the logarithm of the shifted row's exponentials' sum. -/
def logSoftmax (y : Fin e → EReal) (j : Fin e) : EReal :=
  (y j - rowMax y) - Ideal.log (∑ j' : Fin e, Ideal.exp (y j' - rowMax y))

/-- Layer two's entry: the log-softmax of the linear stage's row. -/
def logits (mr xr : Fin d → EReal) (Wl Wr : (⟨2, ![d, e]⟩ : Shape).Idx → EReal) (b : (⟨1, ![e]⟩ : Shape).Idx → EReal)
    (j : Fin e) : EReal :=
  logSoftmax (lin mr xr Wl Wr b) j

variable {n : Nat}

/-- Row `r` of an `n × d` array. -/
def row (A : (⟨2, ![n, d]⟩ : Shape).Idx → EReal) (r : Fin n) : Fin d → EReal := fun k => A (ix2 r k)

/-- Layer one over whole arrays: entry `(r, j)` from rows `r` of the means `M` and the features `X`, the weights, the
    bias and the mask `K`. -/
def layer1 (M X : (⟨2, ![n, d]⟩ : Shape).Idx → EReal) (Wl Wr : (⟨2, ![d, e]⟩ : Shape).Idx → EReal)
    (b : (⟨1, ![e]⟩ : Shape).Idx → EReal) (K : (⟨2, ![n, e]⟩ : Shape).Idx → EReal) :
    (⟨2, ![n, e]⟩ : Shape).Idx → EReal :=
  fun i => hidden (row M (i 0 : Fin n)) (row X (i 0 : Fin n)) Wl Wr b (K i) (i 1 : Fin e)

theorem layer1_apply (M X : (⟨2, ![n, d]⟩ : Shape).Idx → EReal) (Wl Wr : (⟨2, ![d, e]⟩ : Shape).Idx → EReal)
    (b : (⟨1, ![e]⟩ : Shape).Idx → EReal) (K : (⟨2, ![n, e]⟩ : Shape).Idx → EReal) (r : Fin n) (j : Fin e) :
    layer1 M X Wl Wr b K (ix2 r j) = hidden (row M r) (row X r) Wl Wr b (K (ix2 r j)) j := rfl

/-- Layer two over whole arrays: entry `(r, j)` from rows `r` of the means `M` and the hidden features `X`. -/
def layer2 (M X : (⟨2, ![n, d]⟩ : Shape).Idx → EReal) (Wl Wr : (⟨2, ![d, e]⟩ : Shape).Idx → EReal)
    (b : (⟨1, ![e]⟩ : Shape).Idx → EReal) : (⟨2, ![n, e]⟩ : Shape).Idx → EReal :=
  fun i => logits (row M (i 0 : Fin n)) (row X (i 0 : Fin n)) Wl Wr b (i 1 : Fin e)

theorem layer2_apply (M X : (⟨2, ![n, d]⟩ : Shape).Idx → EReal) (Wl Wr : (⟨2, ![d, e]⟩ : Shape).Idx → EReal)
    (b : (⟨1, ![e]⟩ : Shape).Idx → EReal) (r : Fin n) (j : Fin e) :
    layer2 M X Wl Wr b (ix2 r j) = logits (row M r) (row X r) Wl Wr b j := rfl

end Cert.Sage

end
-- ==== Proof.LibColumn.lean ====
/-
  Column-shaped values read at an index given by coordinates, and a lane sum read as a finite sum.

  A row-wise reduction that keeps its axis (`sum(…, axis=1, keepdims=True)`) leaves an `[a, 1]` column. Three re-layings
  of such a column occur whenever it meets a full `[a, b]` tile: the cast of the `[a]` vector of sums to the column, the
  column broadcast along the rows of the tile, and (for the other operand's sums) the column transposed to a `[1, b]` row,
  which the library's `transpose_ix2_apply` and `broadcastTo_1b_ab_apply` already read. Each lemma states what the
  re-laid value holds at `(p, c)` in terms of the original vector, for indices built by `ix1` / `ix2`, so that it applies
  to a printed operation by unification. Generic in the extents and in the element type.
-/
import Idealize.ShloMosaic.Lib.ValueLayout
import Idealize.ShloMosaic.PureOps.Ideal.Laws

namespace Cert.Lib.Column

open Idealize.ShloMosaic Idealize.ShloMosaic.ValueIdx

variable {α : Type}

/-- An `[a]` vector cast to the column `[a, 1]` reads, at `(i, u)`, the vector's entry `i`, whatever the unit
    coordinate `u`: both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`: every column of the
    result is the operand. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of an `[a, d]` block (a float `multi_reduction <add>` over axis 1 from the neutral
    accumulator), read on the extended reals at row `i`, is the finite sum of the row's `d` entries. -/
theorem rowSum_apply {φ : FTy} {a d : ℕ} (src : FVec Ideal ⟨2, ![a, d]⟩ φ) (acc : BitVec φ.bits)
    (h : (⟨2, ![a, d]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin d, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Column
-- ==== Proof.Payload.lean ====
/-
  The two kernel bodies' arithmetic read at one output entry, on the extended reals.

  Each body is a single term of the blocks it loads. Reading it at entry `(p, q)` goes operation by operation: the
  pointwise ones read their operands at the same entry; a product into the zero accumulator is the sum over the shared
  axis of the operands' products; the bias, a vector laid along one row and repeated down the rows, is its entry `q`;
  a row's maximum and a row's sum, laid as a column and repeated along the row, are that row's value whatever `q`.
  What is left is exactly the layer's entry as Spec.lean writes it, summand for summand.
-/
import proofs.«118168_j23656679866485_1_alg».proof.Proof.Gen.KernelIdeal.Skeleton
import proofs.«118168_j23656679866485_1_alg».proof.Proof.Spec
import proofs.«118168_j23656679866485_1_alg».proof.Proof.LibColumn
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx

/-! ## A product into the zero accumulator, read at an entry

The operand indices of the product at output `(p, q)` and contraction coordinate `k` are `(p, k)` and `(k, q)`: one
coordinate lemma per operand axis, then the contraction index set is re-indexed by its single coordinate. -/

theorem lhsA_0 (i : S2000x128.Idx) (c : dot_S2000x128_S128x128_S2000x128_1_0_0_1_n_n.contr.Idx) :
    (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhsA_1 (i : S2000x128.Idx) (c : dot_S2000x128_S128x128_S2000x128_1_0_0_1_n_n.contr.Idx) :
    (dot_S2000x128_S128x128_S2000x128_1_0_0_1_n_n.lhsIdx i c 1).val = (c ⟨0, by decide⟩).val :=
  dot_S2000x128_S128x128_S2000x128_1_0_0_1_n_n.lhsIdx_val_of_single rfl i c
theorem rhsA_0 (i : S2000x128.Idx) (c : dot_S2000x128_S128x128_S2000x128_1_0_0_1_n_n.contr.Idx) :
    (dot_S2000x128_S128x128_S2000x128_1_0_0_1_n_n.rhsIdx i c 0).val = (c ⟨0, by decide⟩).val :=
  dot_S2000x128_S128x128_S2000x128_1_0_0_1_n_n.rhsIdx_val_of_single rfl i c
theorem rhsA_1 (i : S2000x128.Idx) (c : dot_S2000x128_S128x128_S2000x128_1_0_0_1_n_n.contr.Idx) :
    (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The `2000 × 128` by `128 × 128` product at `(p, q)`: the sum over `k` of `l (p, k) · r (k, q)`. -/
theorem matmulA_apply (l : FVec Ideal S2000x128 .bf16) (r : FVec Ideal S128x128 .bf16) (p : Fin 2000) (q : Fin 128) :
    matmul (F := Ideal) dot_S2000x128_S128x128_S2000x128_1_0_0_1_n_n none l r (constant (F := Ideal) S2000x128 .f32 0x00000000#32) (ix2 p q)
      = ∑ k : Fin 128, l (ix2 p k) * r (ix2 k q) := by
  refine (Ideal.matmul_constant_zero_apply dot_S2000x128_S128x128_S2000x128_1_0_0_1_n_n none l r (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhsA_0 _ _
    | ⟨1, _⟩ => exact (lhsA_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhsA_0 _ _).trans hk
    | ⟨1, _⟩ => exact rhsA_1 _ _)
  rw [el, er]

theorem lhsB_0 (i : S2000x64.Idx) (c : dot_S2000x128_S128x64_S2000x64_1_0_0_1_n_n.contr.Idx) :
    (dot_S2000x128_S128x64_S2000x64_1_0_0_1_n_n.lhsIdx i c 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhsB_1 (i : S2000x64.Idx) (c : dot_S2000x128_S128x64_S2000x64_1_0_0_1_n_n.contr.Idx) :
    (dot_S2000x128_S128x64_S2000x64_1_0_0_1_n_n.lhsIdx i c 1).val = (c ⟨0, by decide⟩).val :=
  dot_S2000x128_S128x64_S2000x64_1_0_0_1_n_n.lhsIdx_val_of_single rfl i c
theorem rhsB_0 (i : S2000x64.Idx) (c : dot_S2000x128_S128x64_S2000x64_1_0_0_1_n_n.contr.Idx) :
    (dot_S2000x128_S128x64_S2000x64_1_0_0_1_n_n.rhsIdx i c 0).val = (c ⟨0, by decide⟩).val :=
  dot_S2000x128_S128x64_S2000x64_1_0_0_1_n_n.rhsIdx_val_of_single rfl i c
theorem rhsB_1 (i : S2000x64.Idx) (c : dot_S2000x128_S128x64_S2000x64_1_0_0_1_n_n.contr.Idx) :
    (dot_S2000x128_S128x64_S2000x64_1_0_0_1_n_n.rhsIdx i c 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The `2000 × 128` by `128 × 64` product at `(p, q)`: the sum over `k` of `l (p, k) · r (k, q)`. -/
theorem matmulB_apply (l : FVec Ideal S2000x128 .bf16) (r : FVec Ideal S128x64 .bf16) (p : Fin 2000) (q : Fin 64) :
    matmul (F := Ideal) dot_S2000x128_S128x64_S2000x64_1_0_0_1_n_n none l r (constant (F := Ideal) S2000x64 .f32 0x00000000#32) (ix2 p q)
      = ∑ k : Fin 128, l (ix2 p k) * r (ix2 k q) := by
  refine (Ideal.matmul_constant_zero_apply dot_S2000x128_S128x64_S2000x64_1_0_0_1_n_n none l r (ix2 p q)).trans ?_
  rw [← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q) ((contrEquiv1 dot_S2000x128_S128x64_S2000x64_1_0_0_1_n_n 128 rfl rfl).symm k) = ix2 p k := funext fun a => Fin.ext (by
    match a with
    | ⟨0, _⟩ => exact lhsB_0 _ _
    | ⟨1, _⟩ => exact (lhsB_1 _ _).trans hk)
  have er : dot_S2000x128_S128x64_S2000x64_1_0_0_1_n_n.rhsIdx (ix2 p q) ((contrEquiv1 dot_S2000x128_S128x64_S2000x64_1_0_0_1_n_n 128 rfl rfl).symm k) = ix2 k q := funext fun a => Fin.ext (by
    match a with
    | ⟨0, _⟩ => exact (rhsB_0 _ _).trans hk
    | ⟨1, _⟩ => exact rhsB_1 _ _)
  rw [el, er]

/-! ## The bias: a vector laid as one row and repeated down the rows -/

/-- A vector of `b` entries cast to one row and broadcast over `a` rows reads, at `(p, q)`, its entry `q`. -/
theorem biasRow_apply {α : Type} {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ v hc) hb (ix2 p q) = v (ix1 q) :=
  (broadcastTo_1b_ab_apply _ hb p q).trans (shapeCast_a_1a_apply v hc 0 q)

/-! ## Layer one's body at an entry -/

/-- The first body at `(p, q)`: the positive part of the linear stage's entry, times the mask's entry. -/
theorem pay0_apply (x0 x1 : Vec Ideal S2000x128 .f32) (wl wr : Vec Ideal S128x128 .f32) (b : Vec Ideal S128 .f32)
    (k : Vec Ideal S2000x128 .f32) (p : Fin 2000) (q : Fin 128) :
    k0_pay1 (F := Ideal) x0 x1 wl wr b k (ix2 p q)
      = Cert.Sage.hidden (Cert.Sage.row x0 p) (Cert.Sage.row x1 p) wl wr b (k (ix2 p q)) q := by
  unfold k0_pay1
  rw [shapeCast_self]
  -- the pointwise operations read their operands at the same entry
  show max
      ((matmul (F := Ideal) dot_S2000x128_S128x128_S2000x128_1_0_0_1_n_n none
            (truncf (F := Ideal) .bf16 x0 bitsLt_bf16_f32) (truncf (F := Ideal) .bf16 wl bitsLt_bf16_f32)
            (constant (F := Ideal) S2000x128 .f32 0x00000000#32) (ix2 p q)
          + matmul (F := Ideal) dot_S2000x128_S128x128_S2000x128_1_0_0_1_n_n none
            (truncf (F := Ideal) .bf16 x1 bitsLt_bf16_f32) (truncf (F := Ideal) .bf16 wr bitsLt_bf16_f32)
            (constant (F := Ideal) S2000x128 .f32 0x00000000#32) (ix2 p q))
        + broadcastTo S2000x128 (shapeCast S1x128 b shapeCasts_S128_S1x128) broadcasts_S1x128_S2000x128 (ix2 p q))
      (Ideal.ofBits .f32 0x00000000#32) * k (ix2 p q) = _
  rw [matmulA_apply, matmulA_apply, biasRow_apply, Ideal.ofBits_zero_f32]
  -- the narrowing format change is the identity on the extended reals
  rfl

/-! ## Layer two's body at an entry

The body is the linear stage's block followed by the row-wise log-softmax of that block; the two are read apart. -/

/-- A row's maximum (the fold of `max` over axis 1 from the pattern of `-∞`), read on the extended reals at row `i`. -/
theorem rowMax_apply {a d : ℕ} (src : FVec Ideal ⟨2, ![a, d]⟩ .f32) (h : (⟨2, ![a, d]⟩ : Shape).Reduces [1] ⟨1, ![a]⟩)
    (hφ : FKind.Formats .f32) (hacc : (0xFF800000#32 : BitVec 32) = FKind.maximumf.neutral .f32 hφ) (i : Fin a) :
    multiReduction (F := Ideal) .maximumf [1] ⟨1, ![a]⟩ src 0xFF800000#32 h hφ hacc (ix1 i)
      = Cert.Sage.rowMax fun j : Fin d => src (ix2 i j) :=
  (Ideal.multiReduction_maximumf_single src _ h hφ hacc (ix1 i)).trans
    ((congrArg (fun z => (Finset.univ : Finset (Fin d)).fold max z (src ∘ h.lift (ix1 i))) Cert.Sage.negInf_f32).trans
      (Finset.fold_congr fun k _ => congrArg src (funext fun c => Fin.ext (by
        match c with
        | ⟨0, _⟩ => rfl
        | ⟨1, _⟩ => rfl))))

/-- A vector of `a` entries laid as a column and repeated along `b` columns reads, at `(p, q)`, its entry `p`. -/
theorem column_apply {α : Type} {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v hc) hb (ix2 p q) = v (ix1 p) :=
  (Cert.Lib.Column.broadcastTo_a1_ab_apply _ hb p q).trans (Cert.Lib.Column.shapeCast_a_a1_apply v hc p 0)

/-- The linear stage of the second body as a block: the two products and the bias row. -/
def linBlock (x0 x1 : Vec Ideal S2000x128 .f32) (wl wr : Vec Ideal S128x64 .f32) (b : Vec Ideal S64 .f32) :
    FVec Ideal S2000x64 .f32 :=
  addf
    (addf
      (matmul dot_S2000x128_S128x64_S2000x64_1_0_0_1_n_n none (truncf .bf16 x0 bitsLt_bf16_f32) (truncf .bf16 wl bitsLt_bf16_f32)
        (constant S2000x64 .f32 0x00000000#32))
      (matmul dot_S2000x128_S128x64_S2000x64_1_0_0_1_n_n none (truncf .bf16 x1 bitsLt_bf16_f32) (truncf .bf16 wr bitsLt_bf16_f32)
        (constant S2000x64 .f32 0x00000000#32)))
    (broadcastTo S2000x64 (shapeCast S1x64 b shapeCasts_S64_S1x64) broadcasts_S1x64_S2000x64)

/-- The block's entry `(p, q)` is the linear stage's entry. -/
theorem linBlock_apply (x0 x1 : Vec Ideal S2000x128 .f32) (wl wr : Vec Ideal S128x64 .f32) (b : Vec Ideal S64 .f32)
    (p : Fin 2000) (q : Fin 64) :
    linBlock x0 x1 wl wr b (ix2 p q) = Cert.Sage.lin (Cert.Sage.row x0 p) (Cert.Sage.row x1 p) wl wr b q := by
  unfold linBlock
  show (matmul (F := Ideal) dot_S2000x128_S128x64_S2000x64_1_0_0_1_n_n none
          (truncf (F := Ideal) .bf16 x0 bitsLt_bf16_f32) (truncf (F := Ideal) .bf16 wl bitsLt_bf16_f32)
          (constant (F := Ideal) S2000x64 .f32 0x00000000#32) (ix2 p q)
        + matmul (F := Ideal) dot_S2000x128_S128x64_S2000x64_1_0_0_1_n_n none
          (truncf (F := Ideal) .bf16 x1 bitsLt_bf16_f32) (truncf (F := Ideal) .bf16 wr bitsLt_bf16_f32)
          (constant (F := Ideal) S2000x64 .f32 0x00000000#32) (ix2 p q))
      + broadcastTo S2000x64 (shapeCast S1x64 b shapeCasts_S64_S1x64) broadcasts_S1x64_S2000x64 (ix2 p q) = _
  rw [matmulB_apply, matmulB_apply, biasRow_apply]
  rfl

/-- The row-wise log-softmax the second body applies to a block: the row maximum as a column, the shift, the
    exponentials' row sum as a column, its logarithm, the second shift. -/
def logSoftmaxBlock (y : FVec Ideal S2000x64 .f32) : FVec Ideal S2000x64 .f32 :=
  subf
    (subf y
      (broadcastTo S2000x64
        (shapeCast S2000x1 (multiReduction .maximumf [1] S2000 y 0xFF800000#32 reduces_S2000x64_S2000 (.inl rfl) rfl)
          shapeCasts_S2000_S2000x1)
        broadcasts_S2000x1_S2000x64))
    (broadcastTo S2000x64
      (log
        (shapeCast S2000x1
          (multiReduction .add [1] S2000
            (exp
              (subf y
                (broadcastTo S2000x64
                  (shapeCast S2000x1
                    (multiReduction .maximumf [1] S2000 y 0xFF800000#32 reduces_S2000x64_S2000 (.inl rfl) rfl)
                    shapeCasts_S2000_S2000x1)
                  broadcasts_S2000x1_S2000x64)))
            0x00000000#32 reduces_S2000x64_S2000 (.inl rfl) rfl)
          shapeCasts_S2000_S2000x1))
      broadcasts_S2000x1_S2000x64)

/-- The second body is that log-softmax of the linear stage's block: the casts of a block to its own shape drop out. -/
theorem k1_pay1_eq (x0 x1 : Vec Ideal S2000x128 .f32) (wl wr : Vec Ideal S128x64 .f32) (b : Vec Ideal S64 .f32) :
    k1_pay1 (F := Ideal) x0 x1 wl wr b = logSoftmaxBlock (linBlock x0 x1 wl wr b) := by
  unfold k1_pay1 logSoftmaxBlock linBlock
  rw [shapeCast_self, shapeCast_self]

/-- The block's log-softmax at `(p, q)` is the log-softmax of row `p` at `q`. -/
theorem logSoftmaxBlock_apply (y : FVec Ideal S2000x64 .f32) (p : Fin 2000) (q : Fin 64) :
    logSoftmaxBlock y (ix2 p q) = Cert.Sage.logSoftmax (fun j : Fin 64 => y (ix2 p j)) q := by
  -- the row maximum, as the column repeated along the row, at any entry of row `p`
  have hM : ∀ j : Fin 64,
      broadcastTo S2000x64
          (shapeCast S2000x1
            (multiReduction (F := Ideal) .maximumf [1] S2000 y 0xFF800000#32 reduces_S2000x64_S2000 (.inl rfl) rfl)
            shapeCasts_S2000_S2000x1)
          broadcasts_S2000x1_S2000x64 (ix2 p j)
        = Cert.Sage.rowMax fun j : Fin 64 => y (ix2 p j) := fun j =>
    (column_apply _ shapeCasts_S2000_S2000x1 broadcasts_S2000x1_S2000x64 p j).trans
      (rowMax_apply y reduces_S2000x64_S2000 (.inl rfl) rfl p)
  unfold logSoftmaxBlock Cert.Sage.logSoftmax
  refine congrArg₂ (· - ·) (congrArg (y (ix2 p q) - ·) (hM q)) ?_
  -- the logarithm of the row sum, as the column repeated along the row
  refine (Cert.Lib.Column.broadcastTo_a1_ab_apply _ broadcasts_S2000x1_S2000x64 p q).trans ?_
  refine congrArg Ideal.log ?_
  refine (Cert.Lib.Column.shapeCast_a_a1_apply _ shapeCasts_S2000_S2000x1 p 0).trans ?_
  refine (Cert.Lib.Column.rowSum_apply _ _ reduces_S2000x64_S2000 (.inl rfl) rfl p).trans ?_
  exact Finset.sum_congr rfl fun j _ => congrArg Ideal.exp (congrArg (y (ix2 p j) - ·) (hM j))

/-- The second body at `(p, q)`: the log-softmax of the linear stage's row `p`, at `q`. -/
theorem pay1_apply (x0 x1 : Vec Ideal S2000x128 .f32) (wl wr : Vec Ideal S128x64 .f32) (b : Vec Ideal S64 .f32)
    (p : Fin 2000) (q : Fin 64) :
    k1_pay1 (F := Ideal) x0 x1 wl wr b (ix2 p q)
      = Cert.Sage.logits (Cert.Sage.row x0 p) (Cert.Sage.row x1 p) wl wr b q := by
  rw [k1_pay1_eq, logSoftmaxBlock_apply]
  unfold Cert.Sage.logits
  exact congrArg (fun r => Cert.Sage.logSoftmax r q) (funext fun j => linBlock_apply x0 x1 wl wr b p j)

end Cert.KernelIdeal.Hand

end
-- ==== Proof.Hidden.lean ====
/-
  Layer one's output array. The first region runs 25 grid points; point `t` reads rows `2000 t … 2000 t + 1999` of the
  neighbour means, of the features and of the dropout mask, and the weight matrices and the bias whole, and writes back
  the same rows of the output. Each written entry is the layer's entry for its node, so the 25 blocks, which tile the
  50000 rows, leave the array at the layer's whole-array function of the arrays the region found.
-/
import proofs.«118168_j23656679866485_1_alg».proof.Proof.Gen.KernelIdeal.Frame
import proofs.«118168_j23656679866485_1_alg».proof.Proof.Payload
import proofs.«118168_j23656679866485_1_alg».proof.Proof.Spec
import Idealize.ShloMosaic.Lib.Pipeline.Value
import Idealize.ShloMosaic.Lib.ValueIdx
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- Layer one of the arrays as the first region finds them. -/
abbrev hiddenArr (c : Dev nD) : S50000x128.Idx → EReal :=
  Cert.Sage.layer1 (n := 50000) (d := 128) (e := 128) (V c main_v22) (V c main_arg0) (V c main_arg3) (V c main_arg5) (V c main_arg4) (V c main_arg2)

/-- The block index maps over the 25 points: the row-tiled windows sit at block row `t`, the weights and the bias at
    block zero. -/
theorem rowBlocks0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 ∧ t.val < 25 :=
  (by decide +kernel : ∀ t : Fin grid0.N, _)

/-- Window 0 at point `t`: entry `(p, k)` of its block is entry `(2000 t + p, k)` of its array. -/
theorem meanRows0 (c : Dev nD) (t : Fin cfg0.N) (p : Fin 2000) (k : Fin 128) (r : Fin 50000) (hr : r.val = t.val * 2000 + p.val) :
    (iblk0 V c 0 t : Vec Ideal S2000x128 .f32) (ix2 p k) = (V c main_v22 : S50000x128.Idx → EReal) (ix2 r k) := by
  obtain ⟨e00, e01, e10, e11, e20, e21, e30, e40, e41, e50, e51, e60, e61, ht⟩ := rowBlocks0 t
  unfold iblk0
  rw [View.read_apply]
  show V c main_v22 _ = V c main_v22 _
  congr 1
  funext a
  apply Fin.ext
  match a with
  | ⟨0, _⟩ => show win0_0.index t (0 : Fin 2) * 2000 + 1 * p.val = r.val; rw [e00, hr]; omega
  | ⟨1, _⟩ => show win0_0.index t (1 : Fin 2) * 128 + 1 * k.val = k.val; rw [e01]; omega

/-- Window 1 at point `t`: entry `(p, k)` of its block is entry `(2000 t + p, k)` of its array. -/
theorem featRows0 (c : Dev nD) (t : Fin cfg0.N) (p : Fin 2000) (k : Fin 128) (r : Fin 50000) (hr : r.val = t.val * 2000 + p.val) :
    (iblk0 V c 1 t : Vec Ideal S2000x128 .f32) (ix2 p k) = (V c main_arg0 : S50000x128.Idx → EReal) (ix2 r k) := by
  obtain ⟨e00, e01, e10, e11, e20, e21, e30, e40, e41, e50, e51, e60, e61, ht⟩ := rowBlocks0 t
  unfold iblk0
  rw [View.read_apply]
  show V c main_arg0 _ = V c main_arg0 _
  congr 1
  funext a
  apply Fin.ext
  match a with
  | ⟨0, _⟩ => show win0_1.index t (0 : Fin 2) * 2000 + 1 * p.val = r.val; rw [e10, hr]; omega
  | ⟨1, _⟩ => show win0_1.index t (1 : Fin 2) * 128 + 1 * k.val = k.val; rw [e11]; omega

/-- Window 5 at point `t`: entry `(p, k)` of its block is entry `(2000 t + p, k)` of its array. -/
theorem maskRows0 (c : Dev nD) (t : Fin cfg0.N) (p : Fin 2000) (k : Fin 128) (r : Fin 50000) (hr : r.val = t.val * 2000 + p.val) :
    (iblk0 V c 5 t : Vec Ideal S2000x128 .f32) (ix2 p k) = (V c main_arg2 : S50000x128.Idx → EReal) (ix2 r k) := by
  obtain ⟨e00, e01, e10, e11, e20, e21, e30, e40, e41, e50, e51, e60, e61, ht⟩ := rowBlocks0 t
  unfold iblk0
  rw [View.read_apply]
  show V c main_arg2 _ = V c main_arg2 _
  congr 1
  funext a
  apply Fin.ext
  match a with
  | ⟨0, _⟩ => show win0_5.index t (0 : Fin 2) * 2000 + 1 * p.val = r.val; rw [e50, hr]; omega
  | ⟨1, _⟩ => show win0_5.index t (1 : Fin 2) * 128 + 1 * k.val = k.val; rw [e51]; omega

/-- Window 2 holds its whole array at every point. -/
theorem wlWhole0 (c : Dev nD) (t : Fin cfg0.N) : (iblk0 V c 2 t : Vec Ideal S128x128 .f32) = (V c main_arg3 : S128x128.Idx → EReal) := by
  obtain ⟨e00, e01, e10, e11, e20, e21, e30, e40, e41, e50, e51, e60, e61, ht⟩ := rowBlocks0 t
  funext y
  unfold iblk0
  rw [View.read_apply]
  show V c main_arg3 _ = V c main_arg3 _
  congr 1
  funext a
  apply Fin.ext
  match a with
  | ⟨0, _⟩ => show win0_2.index t (0 : Fin 2) * 128 + 1 * (y 0).val = (y 0).val; rw [e20]; omega
  | ⟨1, _⟩ => show win0_2.index t (1 : Fin 2) * 128 + 1 * (y 1).val = (y 1).val; rw [e21]; omega

/-- Window 4 holds its whole array at every point. -/
theorem wrWhole0 (c : Dev nD) (t : Fin cfg0.N) : (iblk0 V c 4 t : Vec Ideal S128x128 .f32) = (V c main_arg5 : S128x128.Idx → EReal) := by
  obtain ⟨e00, e01, e10, e11, e20, e21, e30, e40, e41, e50, e51, e60, e61, ht⟩ := rowBlocks0 t
  funext y
  unfold iblk0
  rw [View.read_apply]
  show V c main_arg5 _ = V c main_arg5 _
  congr 1
  funext a
  apply Fin.ext
  match a with
  | ⟨0, _⟩ => show win0_4.index t (0 : Fin 2) * 128 + 1 * (y 0).val = (y 0).val; rw [e40]; omega
  | ⟨1, _⟩ => show win0_4.index t (1 : Fin 2) * 128 + 1 * (y 1).val = (y 1).val; rw [e41]; omega

/-- The bias window holds its whole array at every point. -/
theorem biasWhole0 (c : Dev nD) (t : Fin cfg0.N) : (iblk0 V c 3 t : Vec Ideal S128 .f32) = (V c main_arg4 : S128.Idx → EReal) := by
  obtain ⟨e00, e01, e10, e11, e20, e21, e30, e40, e41, e50, e51, e60, e61, ht⟩ := rowBlocks0 t
  funext y
  unfold iblk0
  rw [View.read_apply]
  show V c main_arg4 _ = V c main_arg4 _
  congr 1
  funext a
  apply Fin.ext
  match a with
  | ⟨0, _⟩ => show win0_3.index t (0 : Fin 1) * 128 + 1 * (y 0).val = (y 0).val; rw [e30]; omega

/-- What point `t` writes back is block `t` of layer one's array. -/
theorem flushed0 (c : Dev nD) (t : Fin cfg0.N) :
    (dat0 V c).flushed 6 t = ((cfg0.win 6).blk t).view.read (Elt Ideal) (hiddenArr V c) := by
  show (cfg0.win 6).cut (grid0.coords t) ((dat0 V c).after 6 t) = _
  rw [after0_6]
  unfold out0_6
  rw [View.canon_unit_zero zero2]
  simp only [View.ld_unit_zero (S := S2000x128) zero2, View.ld_unit_zero (S := S128x128) zero2, View.ld_unit_zero (S := S128) zero1]
  obtain ⟨e00, e01, e10, e11, e20, e21, e30, e40, e41, e50, e51, e60, e61, ht⟩ := rowBlocks0 t
  funext j
  obtain ⟨p, q, rfl⟩ : ∃ (p : Fin 2000) (q : Fin 128), j = (ix2 p q : S2000x128.Idx) := ⟨j 0, j 1, @eq_ix2 2000 128 j⟩
  have hlt : t.val * 2000 + p.val < 50000 := by have := p.isLt; omega
  have hemb : ((cfg0.win 6).blk t).view.emb (ix2 p q : S2000x128.Idx) = (ix2 (⟨t.val * 2000 + p.val, hlt⟩ : Fin 50000) q : S50000x128.Idx) := by
    funext a
    apply Fin.ext
    match a with
    | ⟨0, _⟩ => show win0_6.index t (0 : Fin 2) * 2000 + 1 * p.val = t.val * 2000 + p.val; rw [e60]; omega
    | ⟨1, _⟩ => show win0_6.index t (1 : Fin 2) * 128 + 1 * q.val = q.val; rw [e61]; omega
  rw [View.read_apply, hemb]
  show k0_pay1 (F := Ideal) (iblk0 V c 0 t) (iblk0 V c 1 t) (iblk0 V c 2 t) (iblk0 V c 4 t) (iblk0 V c 3 t) (iblk0 V c 5 t) (ix2 p q) = _
  refine (pay0_apply (iblk0 V c 0 t) (iblk0 V c 1 t) (iblk0 V c 2 t) (iblk0 V c 4 t) (iblk0 V c 3 t) (iblk0 V c 5 t) p q).trans ?_
  unfold hiddenArr
  rw [Cert.Sage.layer1_apply, wlWhole0 V c t, wrWhole0 V c t, biasWhole0 V c t,
    maskRows0 V c t p q ⟨t.val * 2000 + p.val, hlt⟩ rfl]
  congr 1
  · exact funext fun k => meanRows0 V c t p k ⟨t.val * 2000 + p.val, hlt⟩ rfl
  · exact funext fun k => featRows0 V c t p k ⟨t.val * 2000 + p.val, hlt⟩ rfl

/-- An index of the output array is in point `t`'s block iff its row lies in the block's 2000 rows. -/
theorem mem_block0 (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v23).slice (win0_6.rect t)).set ↔ _
  rw [View.set_slice_whole, Rect.mem_set_unit]
  exact Iff.rfl

/-- The 25 blocks tile the 50000 rows, so the first region leaves layer one's array in its output buffer. -/
theorem final0 (c : Dev nD) : (dat0 V c).arrAt 6 cfg0.N = hiddenArr V c :=
  (dat0 V c).arrAt_eq_of_cover 6 (hiddenArr V c) (fun t _ => flushed0 V c t) fun i => by
    have hi0 : (i 0).val < 50000 := (i 0).isLt
    have hi1 : (i 1).val < 128 := (i 1).isLt
    have hN : cfg0.N = 25 := N_0
    refine ⟨⟨(i 0).val / 2000, by rw [hN]; omega⟩, flush0_6 _, ?_⟩
    rw [mem_block0]
    obtain ⟨e00, e01, e10, e11, e20, e21, e30, e40, e41, e50, e51, e60, e61, ht⟩ := rowBlocks0 ⟨(i 0).val / 2000, by rw [hN]; omega⟩
    intro a
    match a with
    | ⟨0, _⟩ => show win0_6.index _ (0 : Fin 2) * 2000 ≤ (i 0).val ∧ (i 0).val < win0_6.index _ (0 : Fin 2) * 2000 + 2000; rw [e60]; show (i 0).val / 2000 * 2000 ≤ _ ∧ _ < (i 0).val / 2000 * 2000 + 2000; omega
    | ⟨1, _⟩ => show win0_6.index _ (1 : Fin 2) * 128 ≤ (i 1).val ∧ (i 1).val < win0_6.index _ (1 : Fin 2) * 128 + 128; rw [e61]; omega

end Cert.KernelIdeal.Hand

end
-- ==== Proof.Logits.lean ====
/-
  Layer two's output array. The second region runs 25 grid points; point `t` reads rows `2000 t … 2000 t + 1999` of the
  neighbour means and of the hidden features, and the weight matrices and the bias whole, and writes back the same rows
  of the output. Each written entry is the layer's entry for its node, so the 25 blocks, which tile the 50000 rows,
  leave the array at the layer's whole-array function of the arrays the region found.
-/
import proofs.«118168_j23656679866485_1_alg».proof.Proof.Gen.KernelIdeal.Frame
import proofs.«118168_j23656679866485_1_alg».proof.Proof.Payload
import proofs.«118168_j23656679866485_1_alg».proof.Proof.Spec
import proofs.«118168_j23656679866485_1_alg».proof.Proof.Hidden
import Idealize.ShloMosaic.Lib.Pipeline.Value
import Idealize.ShloMosaic.Lib.ValueIdx
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Layer two of the arrays as the second region finds them. -/
abbrev logitsArr (c : Dev nD) : S50000x64.Idx → EReal :=
  Cert.Sage.layer2 (n := 50000) (d := 128) (e := 64) (V c main_v35) (V c main_v23) (V c main_arg6) (V c main_arg8) (V c main_arg7)

/-- The block index maps over the 25 points: the row-tiled windows sit at block row `t`, the weights and the bias at
    block zero. -/
theorem rowBlocks1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 ∧ t.val < 25 :=
  (by decide +kernel : ∀ t : Fin grid1.N, _)

/-- Window 0 at point `t`: entry `(p, k)` of its block is entry `(2000 t + p, k)` of its array. -/
theorem meanRows1 (c : Dev nD) (t : Fin cfg1.N) (p : Fin 2000) (k : Fin 128) (r : Fin 50000) (hr : r.val = t.val * 2000 + p.val) :
    (iblk1 V c 0 t : Vec Ideal S2000x128 .f32) (ix2 p k) = (V c main_v35 : S50000x128.Idx → EReal) (ix2 r k) := by
  obtain ⟨e00, e01, e10, e11, e20, e21, e30, e40, e41, e50, e51, ht⟩ := rowBlocks1 t
  unfold iblk1
  rw [View.read_apply]
  show V c main_v35 _ = V c main_v35 _
  congr 1
  funext a
  apply Fin.ext
  match a with
  | ⟨0, _⟩ => show win1_0.index t (0 : Fin 2) * 2000 + 1 * p.val = r.val; rw [e00, hr]; omega
  | ⟨1, _⟩ => show win1_0.index t (1 : Fin 2) * 128 + 1 * k.val = k.val; rw [e01]; omega

/-- Window 1 at point `t`: entry `(p, k)` of its block is entry `(2000 t + p, k)` of its array. -/
theorem hiddenRows1 (c : Dev nD) (t : Fin cfg1.N) (p : Fin 2000) (k : Fin 128) (r : Fin 50000) (hr : r.val = t.val * 2000 + p.val) :
    (iblk1 V c 1 t : Vec Ideal S2000x128 .f32) (ix2 p k) = (V c main_v23 : S50000x128.Idx → EReal) (ix2 r k) := by
  obtain ⟨e00, e01, e10, e11, e20, e21, e30, e40, e41, e50, e51, ht⟩ := rowBlocks1 t
  unfold iblk1
  rw [View.read_apply]
  show V c main_v23 _ = V c main_v23 _
  congr 1
  funext a
  apply Fin.ext
  match a with
  | ⟨0, _⟩ => show win1_1.index t (0 : Fin 2) * 2000 + 1 * p.val = r.val; rw [e10, hr]; omega
  | ⟨1, _⟩ => show win1_1.index t (1 : Fin 2) * 128 + 1 * k.val = k.val; rw [e11]; omega

/-- Window 2 holds its whole array at every point. -/
theorem wlWhole1 (c : Dev nD) (t : Fin cfg1.N) : (iblk1 V c 2 t : Vec Ideal S128x64 .f32) = (V c main_arg6 : S128x64.Idx → EReal) := by
  obtain ⟨e00, e01, e10, e11, e20, e21, e30, e40, e41, e50, e51, ht⟩ := rowBlocks1 t
  funext y
  unfold iblk1
  rw [View.read_apply]
  show V c main_arg6 _ = V c main_arg6 _
  congr 1
  funext a
  apply Fin.ext
  match a with
  | ⟨0, _⟩ => show win1_2.index t (0 : Fin 2) * 128 + 1 * (y 0).val = (y 0).val; rw [e20]; omega
  | ⟨1, _⟩ => show win1_2.index t (1 : Fin 2) * 64 + 1 * (y 1).val = (y 1).val; rw [e21]; omega

/-- Window 4 holds its whole array at every point. -/
theorem wrWhole1 (c : Dev nD) (t : Fin cfg1.N) : (iblk1 V c 4 t : Vec Ideal S128x64 .f32) = (V c main_arg8 : S128x64.Idx → EReal) := by
  obtain ⟨e00, e01, e10, e11, e20, e21, e30, e40, e41, e50, e51, ht⟩ := rowBlocks1 t
  funext y
  unfold iblk1
  rw [View.read_apply]
  show V c main_arg8 _ = V c main_arg8 _
  congr 1
  funext a
  apply Fin.ext
  match a with
  | ⟨0, _⟩ => show win1_4.index t (0 : Fin 2) * 128 + 1 * (y 0).val = (y 0).val; rw [e40]; omega
  | ⟨1, _⟩ => show win1_4.index t (1 : Fin 2) * 64 + 1 * (y 1).val = (y 1).val; rw [e41]; omega

/-- The bias window holds its whole array at every point. -/
theorem biasWhole1 (c : Dev nD) (t : Fin cfg1.N) : (iblk1 V c 3 t : Vec Ideal S64 .f32) = (V c main_arg7 : S64.Idx → EReal) := by
  obtain ⟨e00, e01, e10, e11, e20, e21, e30, e40, e41, e50, e51, ht⟩ := rowBlocks1 t
  funext y
  unfold iblk1
  rw [View.read_apply]
  show V c main_arg7 _ = V c main_arg7 _
  congr 1
  funext a
  apply Fin.ext
  match a with
  | ⟨0, _⟩ => show win1_3.index t (0 : Fin 1) * 64 + 1 * (y 0).val = (y 0).val; rw [e30]; omega

/-- What point `t` writes back is block `t` of layer two's array. -/
theorem flushed1 (c : Dev nD) (t : Fin cfg1.N) :
    (dat1 V c).flushed 5 t = ((cfg1.win 5).blk t).view.read (Elt Ideal) (logitsArr V c) := by
  show (cfg1.win 5).cut (grid1.coords t) ((dat1 V c).after 5 t) = _
  rw [after1_5]
  unfold out1_5
  rw [View.canon_unit_zero zero2]
  simp only [View.ld_unit_zero (S := S2000x128) zero2, View.ld_unit_zero (S := S128x64) zero2, View.ld_unit_zero (S := S64) zero1]
  obtain ⟨e00, e01, e10, e11, e20, e21, e30, e40, e41, e50, e51, ht⟩ := rowBlocks1 t
  funext j
  obtain ⟨p, q, rfl⟩ : ∃ (p : Fin 2000) (q : Fin 64), j = (ix2 p q : S2000x64.Idx) := ⟨j 0, j 1, @eq_ix2 2000 64 j⟩
  have hlt : t.val * 2000 + p.val < 50000 := by have := p.isLt; omega
  have hemb : ((cfg1.win 5).blk t).view.emb (ix2 p q : S2000x64.Idx) = (ix2 (⟨t.val * 2000 + p.val, hlt⟩ : Fin 50000) q : S50000x64.Idx) := by
    funext a
    apply Fin.ext
    match a with
    | ⟨0, _⟩ => show win1_5.index t (0 : Fin 2) * 2000 + 1 * p.val = t.val * 2000 + p.val; rw [e50]; omega
    | ⟨1, _⟩ => show win1_5.index t (1 : Fin 2) * 64 + 1 * q.val = q.val; rw [e51]; omega
  rw [View.read_apply, hemb]
  show k1_pay1 (F := Ideal) (iblk1 V c 0 t) (iblk1 V c 1 t) (iblk1 V c 2 t) (iblk1 V c 4 t) (iblk1 V c 3 t) (ix2 p q) = _
  refine (pay1_apply (iblk1 V c 0 t) (iblk1 V c 1 t) (iblk1 V c 2 t) (iblk1 V c 4 t) (iblk1 V c 3 t) p q).trans ?_
  unfold logitsArr
  rw [Cert.Sage.layer2_apply, wlWhole1 V c t, wrWhole1 V c t, biasWhole1 V c t]
  congr 1
  · exact funext fun k => meanRows1 V c t p k ⟨t.val * 2000 + p.val, hlt⟩ rfl
  · exact funext fun k => hiddenRows1 V c t p k ⟨t.val * 2000 + p.val, hlt⟩ rfl

/-- An index of the output array is in point `t`'s block iff its row lies in the block's 2000 rows. -/
theorem mem_block1 (t : Fin cfg1.N) (i : S50000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v36).slice (win1_5.rect t)).set ↔ _
  rw [View.set_slice_whole, Rect.mem_set_unit]
  exact Iff.rfl

/-- The 25 blocks tile the 50000 rows, so the second region leaves layer two's array in its output buffer. -/
theorem final1 (c : Dev nD) : (dat1 V c).arrAt 5 cfg1.N = logitsArr V c :=
  (dat1 V c).arrAt_eq_of_cover 5 (logitsArr V c) (fun t _ => flushed1 V c t) fun i => by
    have hi0 : (i 0).val < 50000 := (i 0).isLt
    have hi1 : (i 1).val < 64 := (i 1).isLt
    have hN : cfg1.N = 25 := N_1
    refine ⟨⟨(i 0).val / 2000, by rw [hN]; omega⟩, flush1_5 _, ?_⟩
    rw [mem_block1]
    obtain ⟨e00, e01, e10, e11, e20, e21, e30, e40, e41, e50, e51, ht⟩ := rowBlocks1 ⟨(i 0).val / 2000, by rw [hN]; omega⟩
    intro a
    match a with
    | ⟨0, _⟩ => show win1_5.index _ (0 : Fin 2) * 2000 ≤ (i 0).val ∧ (i 0).val < win1_5.index _ (0 : Fin 2) * 2000 + 2000; rw [e50]; show (i 0).val / 2000 * 2000 ≤ _ ∧ _ < (i 0).val / 2000 * 2000 + 2000; omega
    | ⟨1, _⟩ => show win1_5.index _ (1 : Fin 2) * 64 ≤ (i 1).val ∧ (i 1).val < win1_5.index _ (1 : Fin 2) * 64 + 64; rw [e51]; omega

end Cert.KernelIdeal.Hand

end
-- ==== Proof.KernelValue.lean ====
/-
  The kernel's result as a function of what it was launched on. Region 0 finds the aggregated features, the features, the
  first layer's weights and bias and the dropout mask, and leaves layer one's array in its output buffer; the second host
  stretch aggregates that array along the same edges; region 1 finds that aggregation, layer one's array and the second
  layer's weights and bias, and leaves layer two's array, the row-wise log-softmax, in the result buffer.
-/
import proofs.«118168_j23656679866485_1_alg».proof.Proof.KRun
import proofs.«118168_j23656679866485_1_alg».proof.Proof.Aggregate
import proofs.«118168_j23656679866485_1_alg».proof.Proof.Hidden
import proofs.«118168_j23656679866485_1_alg».proof.Proof.Logits
import proofs.«118168_j23656679866485_1_alg».proof.Proof.Spec
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- Layer one of the launch contents: the aggregated features and the features through the first layer's weights,
    bias and mask. -/
def hiddenOf (c : Dev nD) : S50000x128.Idx → EReal :=
  Cert.Sage.layer1 (n := 50000) (d := 128) (e := 128) (agg (F := Ideal) (m ((c : Thread nD τ).loc main_arg1)) (m ((c : Thread nD τ).loc main_arg0))) (m ((c : Thread nD τ).loc main_arg0)) (m ((c : Thread nD τ).loc main_arg3)) (m ((c : Thread nD τ).loc main_arg5)) (m ((c : Thread nD τ).loc main_arg4)) (m ((c : Thread nD τ).loc main_arg2))

/-- The network's output on the launch contents: layer two of the aggregated hidden array and the hidden array. -/
def outputOf (c : Dev nD) : S50000x64.Idx → EReal :=
  Cert.Sage.layer2 (n := 50000) (d := 128) (e := 64) (agg (F := Ideal) (m ((c : Thread nD τ).loc main_arg1)) (hiddenOf m c)) (hiddenOf m c) (m ((c : Thread nD τ).loc main_arg6)) (m ((c : Thread nD τ).loc main_arg8)) (m ((c : Thread nD τ).loc main_arg7))

/-- Region 0 leaves layer one's array in its output buffer. -/
theorem exit0_hidden (c : Dev nD) : W2 m ρ c (Proc.devRef .tc main_v23) = hiddenOf m c := by
  refine ((W2_arr m ρ c 6).trans (final0 (V1 m ρ) c)).trans ?_
  unfold hiddenArr hiddenOf
  rw [entry0_mean m ρ c]
  show Cert.Sage.layer1 _ (W1 m ρ c (Proc.devRef .tc main_arg0)) (W1 m ρ c (Proc.devRef .tc main_arg3)) (W1 m ρ c (Proc.devRef .tc main_arg5))
    (W1 m ρ c (Proc.devRef .tc main_arg4)) (W1 m ρ c (Proc.devRef .tc main_arg2)) = _
  rw [entry0_arg0 m ρ c, entry0_arg3 m ρ c, entry0_arg5 m ρ c, entry0_arg4 m ρ c, entry0_arg2 m ρ c]

/-- Region 1 leaves the network's output in the result buffer. -/
theorem exit1_output (c : Dev nD) : W4 m ρ c (Proc.devRef .tc main_v36) = outputOf m c := by
  refine ((W4_arr m ρ c 5).trans (final1 (V3 m ρ) c)).trans ?_
  unfold logitsArr outputOf
  rw [entry1_mean m ρ c, entry1_hidden m ρ c, entry1_arg6 m ρ c, entry1_arg8 m ρ c, entry1_arg7 m ρ c, exit0_hidden m ρ c]

/-- The kernel's run, read: the result buffer ends at the network's output on the launch contents, the nine arguments as
    launched. -/
theorem run : θ_run defs (onTc (τ := τ) (main (F := Ideal))) ⟨m, fun _ => 0, ρ⟩ (fun r => ∀ c : Dev nD,
      r.2.mem ((c.tc : Thread nD τ).loc main_v36) = outputOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (exit1_output m ρ c), (h c).2⟩) (run_result (F := Ideal) m ρ)

end Cert.KernelIdeal.Hand

end
-- ==== Proof.RefFold.lean ====
/-
  The reference's run. Its @main is 85 host operations in a row, so every weakly fair execution ends with each buffer at
  the fold of the operations' results over the launch contents. The fold is evaluated in the program's own three
  stretches: the first layer up to the masked hidden array (39 operations), the second aggregation and linear stage (31),
  and the log-softmax (15); a stretch reads of the earlier ones only the edge endpoints and the hidden array (the second)
  and the pre-softmax array (the third), so each evaluation is short, and the three results compose to the last stage
  of the one-operation-at-a-time reading.
-/
import proofs.«118168_j23656679866485_1_alg».proof.Proof.RefRun
import proofs.«118168_j23656679866485_1_alg».proof.Proof.RefRead
import Idealize.ShloMosaic.Lib.StableHlo.Run
import Idealize.ShloMosaic.Lib.Pipeline.Frame

noncomputable section

namespace Cert.ReferenceIdeal.Hand

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The first layer: through the masked hidden array. -/
abbrev layerOneOps : List (HloOp τ sig (Elt F)) := (ops (F := F)).take 39
/-- The second aggregation and linear stage. -/
abbrev layerTwoOps : List (HloOp τ sig (Elt F)) := ((ops (F := F)).drop 39).take 31
/-- The log-softmax. -/
abbrev softmaxOps : List (HloOp τ sig (Elt F)) := ((ops (F := F)).drop 39).drop 31

theorem ops_split : ops (F := F) = layerOneOps ++ (layerTwoOps ++ softmaxOps) := by
  show ops = List.take 39 ops ++ (List.take 31 (List.drop 39 ops) ++ List.drop 31 (List.drop 39 ops))
  rw [List.take_append_drop, List.take_append_drop]

/-- Contents carried to a typed reference's buffer and back are unchanged (an operation of an inlined function writes
    through such a reference, and the next one reads through it). -/
theorem ofBuf_toBuf {T : BufTy} (x : TRef sig T) (v : T.Contents (Elt F)) : x.ofBuf (x.toBuf v) = v := by
  obtain ⟨r, h, _, _⟩ := x
  subst h
  rfl

variable (V : Valuation τ sig (Elt F))

/-! ## The first stretch -/

set_option maxRecDepth 8192 in
set_option maxHeartbeats 8000000 in
theorem one_src : after layerOneOps V (Proc.devRef .tc main_v1) = val_main_v1 (F := F) (V (Proc.devRef .tc main_arg1)) := by
  simp only [layerOneOps, layerTwoOps, softmaxOps, ops, List.take_succ_cons, List.take_zero, List.drop_succ_cons, List.drop_zero]
  after_results_simp
  rfl

set_option maxRecDepth 8192 in
set_option maxHeartbeats 8000000 in
theorem one_dst : after layerOneOps V (Proc.devRef .tc main_v3) = val_main_v3 (F := F) (V (Proc.devRef .tc main_arg1)) := by
  simp only [layerOneOps, layerTwoOps, softmaxOps, ops, List.take_succ_cons, List.take_zero, List.drop_succ_cons, List.drop_zero]
  after_results_simp
  rfl

set_option maxRecDepth 8192 in
set_option maxHeartbeats 8000000 in
theorem one_hidden : after layerOneOps V (Proc.devRef .tc main_v30)
    = val_main_v30 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  simp only [layerOneOps, layerTwoOps, softmaxOps, ops, List.take_succ_cons, List.take_zero, List.drop_succ_cons, List.drop_zero]
  after_results_simp
  rfl

set_option maxRecDepth 8192 in
set_option maxHeartbeats 8000000 in
theorem one_arg6 : after layerOneOps V (Proc.devRef .tc main_arg6) = (V (Proc.devRef .tc main_arg6)) := by
  simp only [layerOneOps, layerTwoOps, softmaxOps, ops, List.take_succ_cons, List.take_zero, List.drop_succ_cons, List.drop_zero]
  after_results_simp

set_option maxRecDepth 8192 in
set_option maxHeartbeats 8000000 in
theorem one_arg7 : after layerOneOps V (Proc.devRef .tc main_arg7) = (V (Proc.devRef .tc main_arg7)) := by
  simp only [layerOneOps, layerTwoOps, softmaxOps, ops, List.take_succ_cons, List.take_zero, List.drop_succ_cons, List.drop_zero]
  after_results_simp

set_option maxRecDepth 8192 in
set_option maxHeartbeats 8000000 in
theorem one_arg8 : after layerOneOps V (Proc.devRef .tc main_arg8) = (V (Proc.devRef .tc main_arg8)) := by
  simp only [layerOneOps, layerTwoOps, softmaxOps, ops, List.take_succ_cons, List.take_zero, List.drop_succ_cons, List.drop_zero]
  after_results_simp

/-! ## The second stretch -/

set_option maxRecDepth 8192 in
set_option maxHeartbeats 8000000 in
theorem two_pre : after layerTwoOps (after layerOneOps V) (Proc.devRef .tc main_v55)
    = val_main_v55 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  generalize hA : after layerOneOps V = VA
  have h1 : VA (Proc.devRef .tc main_v1) = val_main_v1 (F := F) (V (Proc.devRef .tc main_arg1)) := by rw [← hA]; exact one_src V
  have h3 : VA (Proc.devRef .tc main_v3) = val_main_v3 (F := F) (V (Proc.devRef .tc main_arg1)) := by rw [← hA]; exact one_dst V
  have h30 : VA (Proc.devRef .tc main_v30) = val_main_v30 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by rw [← hA]; exact one_hidden V
  have h6 : VA (Proc.devRef .tc main_arg6) = (V (Proc.devRef .tc main_arg6)) := by rw [← hA]; exact one_arg6 V
  have h7 : VA (Proc.devRef .tc main_arg7) = (V (Proc.devRef .tc main_arg7)) := by rw [← hA]; exact one_arg7 V
  have h8 : VA (Proc.devRef .tc main_arg8) = (V (Proc.devRef .tc main_arg8)) := by rw [← hA]; exact one_arg8 V
  simp only [layerOneOps, layerTwoOps, softmaxOps, ops, List.take_succ_cons, List.take_zero, List.drop_succ_cons, List.drop_zero]
  after_results_simp
  rw [h1, h3, h30, h6, h7, h8]
  rfl

/-! ## The third stretch -/

/-- The log-softmax stretch as a function of the array it reads: subtract the row maximum (taken once more with minus
    infinity), then subtract the logarithm of the row's sum of exponentials. -/
def softmaxOf (y : (⟨S50000x64, .f32⟩ : BufTy).Contents (Elt F)) : (⟨S50000x64, .f32⟩ : BufTy).Contents (Elt F) :=
  subf
    (subf y (broadcastInDim S50000x64 ![0, 1] bcast_S50000x1_S50000x64_0_1 (broadcastInDim S50000x1 ![0] bcast_S50000_S50000x1_0
      (maximumf (broadcastInDim S50000 ![] bcast_S_S50000 (constant (F := F) S_ .f32 0xFF800000#32))
        (Host.reduce FloatOps.maximumf y (constant (F := F) S_ .f32 0xFF800000#32) reducesTo_S50000x64_S50000_d1 h_S_)))))
    (broadcastInDim S50000x64 ![0, 1] bcast_S50000x1_S50000x64_0_1 (Host.log (broadcastInDim S50000x1 ![0] bcast_S50000_S50000x1_0
      (Host.reduceAdd (Host.exp
          (subf y (broadcastInDim S50000x64 ![0, 1] bcast_S50000x1_S50000x64_0_1 (broadcastInDim S50000x1 ![0] bcast_S50000_S50000x1_0
            (maximumf (broadcastInDim S50000 ![] bcast_S_S50000 (constant (F := F) S_ .f32 0xFF800000#32))
              (Host.reduce FloatOps.maximumf y (constant (F := F) S_ .f32 0xFF800000#32) reducesTo_S50000x64_S50000_d1 h_S_))))))
        (constant (F := F) S_ .f32 0x00000000#32) reducesTo_S50000x64_S50000_d1 h_S_))))

set_option maxRecDepth 8192 in
set_option maxHeartbeats 8000000 in
/-- The third stretch leaves in the result buffer the log-softmax of what it finds in the pre-softmax buffer. -/
theorem three_at (VB : Valuation τ sig (Elt F)) :
    after softmaxOps VB (Proc.devRef .tc main_v56) = softmaxOf (VB (Proc.devRef .tc main_v55)) := by
  simp only [layerOneOps, layerTwoOps, softmaxOps, ops, List.take_succ_cons, List.take_zero, List.drop_succ_cons, List.drop_zero]
  after_results_simp
  simp only [ofBuf_toBuf]
  rfl

/-- The reading's last stage is the log-softmax of its pre-softmax stage. -/
theorem stage_out (x0 x2 : (⟨S50000x128, .f32⟩ : BufTy).Contents (Elt F)) (x1 : (⟨S2x800000, .i32⟩ : BufTy).Contents (Elt F))
    (x3 x5 : (⟨S128x128, .f32⟩ : BufTy).Contents (Elt F)) (x4 : (⟨S128, .f32⟩ : BufTy).Contents (Elt F))
    (x6 x8 : (⟨S128x64, .f32⟩ : BufTy).Contents (Elt F)) (x7 : (⟨S64, .f32⟩ : BufTy).Contents (Elt F)) :
    val_main_v56 (F := F) x0 x1 x2 x3 x4 x5 x6 x7 x8 = softmaxOf (val_main_v55 (F := F) x0 x1 x2 x3 x4 x5 x6 x7 x8) := by
  unfold val_main_v56 val_main_call1_v10 val_main_call1_v9 val_main_call1_v8 val_main_call1_v7 val_main_call1_v6 val_main_call1_cst_1
    val_main_call1_v5 val_main_call1_v4 val_main_call1_v3 val_main_call1_v2 val_main_call1_v1 val_main_call1_cst_0 val_main_call1_v0 val_main_call1_cst
  generalize val_main_v55 (F := F) x0 x1 x2 x3 x4 x5 x6 x7 x8 = y
  rfl

theorem three_out : after softmaxOps (after layerTwoOps (after layerOneOps V)) (Proc.devRef .tc main_v56)
    = val_main_v56 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) :=
  (three_at _).trans ((congrArg softmaxOf (two_pre V)).trans (stage_out _ _ _ _ _ _ _ _ _).symm)

/-- The whole fold at the result buffer is the last stage of the reading. -/
theorem fold_out : after (ops (F := F)) V (Proc.devRef .tc main_v56)
    = val_main_v56 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [ops_split, StableHlo.after_append, StableHlo.after_append]
  exact three_out V

/-! ## The run -/

set_option maxRecDepth 8192 in
set_option maxHeartbeats 34000000 in
/-- Every weakly fair execution of the reference terminates with the result buffer at the last stage of the reading,
    applied to the launch contents of the arguments, and the nine arguments as launched. -/
theorem run_stage (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v56)
        = val_main_v56 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v56).trans (fold_out _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl)⟩)
    (run_seq scopedRefs_eq scopedSems_eq defs main (fun _ => ops) main_eq (fun _ => ops_sub) m ρ)

end Cert.ReferenceIdeal.Hand

end
-- ==== Proof.RefValue.lean ====
/-
  The reference's run, read back one operation at a time, is the two layers of the specification.

  The reference aggregates a feature array along the edges by a gather of the source rows, a scatter-add onto the
  target rows and a division by the clamped in-degree; that composition is kept closed here and named `agg`: both
  layers apply the same one, the first to the input and the second to the hidden array. What is opened is everything
  around it. Entry `(r, j)` of a layer's linear stage is a product over the features of row `r` of the aggregated
  array with column `j` of one weight matrix, plus the bias at `j`, plus the like product of row `r` of the layer's own
  input with the other weight matrix: the specification's linear stage with its three summands in another order.
  Layer one then takes the maximum with zero and multiplies by the mask's entry. Layer two subtracts the row's maximum
  (a fold of the maximum from `-inf` along the row, then one more maximum with `-inf`), and subtracts the logarithm of
  the row's sum, from zero, of the exponentials of the shifted entries: the row's log-softmax.
-/
import proofs.«118168_j23656679866485_1_alg».proof.Proof.RefRead
import proofs.«118168_j23656679866485_1_alg».proof.Proof.RefFold
import proofs.«118168_j23656679866485_1_alg».proof.Proof.Spec
import Idealize.ShloMosaic.PureOps.Ideal.Laws
import Idealize.ShloMosaic.PureOps.Reduce
import Idealize.ShloMosaic.Lib.ValueIdx

noncomputable section

namespace Cert.ReferenceIdeal.Hand

open Cert.ReferenceIdeal Cert.ReferenceIdeal.Gen Cert.ReferenceIdeal.ReadP Idealize.ShloMosaic Idealize.ShloMosaic.TcCoe
  Idealize.ShloMosaic.ValueIdx Idealize.SL.Sem Idealize.ShloMosaic.StableHlo

/-- The reference's mean aggregation of a feature array along the edges. -/
abbrev agg (x1 : (⟨S2x800000, .i32⟩ : BufTy).Contents (Elt Ideal)) (X : (⟨S50000x128, .f32⟩ : BufTy).Contents (Elt Ideal)) :
    (⟨S50000x128, .f32⟩ : BufTy).Contents (Elt Ideal) := ReadP.val_main_v22 (F := Ideal) X x1

variable (x0 : (⟨S50000x128, .f32⟩ : BufTy).Contents (Elt Ideal)) (x1 : (⟨S2x800000, .i32⟩ : BufTy).Contents (Elt Ideal))
  (x2 : (⟨S50000x128, .f32⟩ : BufTy).Contents (Elt Ideal)) (x3 : (⟨S128x128, .f32⟩ : BufTy).Contents (Elt Ideal))
  (x4 : (⟨S128, .f32⟩ : BufTy).Contents (Elt Ideal)) (x5 : (⟨S128x128, .f32⟩ : BufTy).Contents (Elt Ideal))
  (x6 : (⟨S128x64, .f32⟩ : BufTy).Contents (Elt Ideal)) (x7 : (⟨S64, .f32⟩ : BufTy).Contents (Elt Ideal))
  (x8 : (⟨S128x64, .f32⟩ : BufTy).Contents (Elt Ideal))

/-- The second layer aggregates the hidden array by the very operations by which the first aggregates the input:
    the same gather along the sources, the same scatter-add onto the targets, the same division by the clamped degree. -/
theorem agg_hidden : ReadP.val_main_v49 (F := Ideal) x0 x1 x2 x3 x4 x5 = agg x1 (ReadP.val_main_v30 (F := Ideal) x0 x1 x2 x3 x4 x5) := rfl

/-! ## Where the stages read: the composed index maps at entry `(r, j)` -/

section Indices
variable (r : Fin 50000) (k : Fin 128)

/-- A product over the features reads its left operand at row `r`, feature `k` … -/
theorem lidx23 (j : Fin 128) : lidx_main_v23 (ix2 r j) k = ix2 r k :=
  funext fun a => match a with | ⟨0, _⟩ => rfl | ⟨1, _⟩ => rfl
/-- … and the weights at feature `k`, column `j`. -/
theorem ridx23 (j : Fin 128) : ridx_main_v23 (ix2 r j) k = ix2 k j :=
  funext fun a => match a with | ⟨0, _⟩ => rfl | ⟨1, _⟩ => rfl
theorem lidx27 (j : Fin 128) : lidx_main_v27 (ix2 r j) k = ix2 r k :=
  funext fun a => match a with | ⟨0, _⟩ => rfl | ⟨1, _⟩ => rfl
theorem ridx27 (j : Fin 128) : ridx_main_v27 (ix2 r j) k = ix2 k j :=
  funext fun a => match a with | ⟨0, _⟩ => rfl | ⟨1, _⟩ => rfl
theorem lidx50 (j : Fin 64) : lidx_main_v50 (ix2 r j) k = ix2 r k :=
  funext fun a => match a with | ⟨0, _⟩ => rfl | ⟨1, _⟩ => rfl
theorem ridx50 (j : Fin 64) : ridx_main_v50 (ix2 r j) k = ix2 k j :=
  funext fun a => match a with | ⟨0, _⟩ => rfl | ⟨1, _⟩ => rfl
theorem lidx54 (j : Fin 64) : lidx_main_v54 (ix2 r j) k = ix2 r k :=
  funext fun a => match a with | ⟨0, _⟩ => rfl | ⟨1, _⟩ => rfl
theorem ridx54 (j : Fin 64) : ridx_main_v54 (ix2 r j) k = ix2 k j :=
  funext fun a => match a with | ⟨0, _⟩ => rfl | ⟨1, _⟩ => rfl
/-- The bias, broadcast along the rows, is read at column `j`. -/
theorem idxBias1 (j : Fin 128) : idx_main_v24 (idx_main_v25 (ix2 r j)) = ix1 j :=
  funext fun a => match a with | ⟨0, _⟩ => rfl
theorem idxBias2 (j : Fin 64) : idx_main_v51 (idx_main_v52 (ix2 r j)) = ix1 j :=
  funext fun a => match a with | ⟨0, _⟩ => rfl
/-- A per-row quantity, broadcast along the columns, is read at row `r`. -/
theorem idxRowMax (j : Fin 64) : idx_main_call1_v3 (idx_main_call1_v4 (ix2 r j)) = ix1 r :=
  funext fun a => match a with | ⟨0, _⟩ => rfl
theorem idxRowSum (j : Fin 64) : idx_main_call1_v8 (idx_main_call1_v10 (ix2 r j)) = ix1 r :=
  funext fun a => match a with | ⟨0, _⟩ => rfl
/-- The sum along a row reads the row's entry `j`. -/
theorem idxSum (j : Fin 64) : idx_main_call1_v7 (ix1 r) j = ix2 r j :=
  funext fun a => match a with | ⟨0, _⟩ => rfl | ⟨1, _⟩ => rfl
/-- Row index `r` of the reduced array with column `j` put back on the dropped axis is the entry `(r, j)`. -/
theorem lift_row (h : S50000x64.Reduces [1] S50000) (j : Fin (S50000x64.size 1)) :
    h.lift (ix1 r) j = ix2 r (⟨j.val, j.isLt⟩ : Fin 64) := by
  funext c
  apply Fin.ext
  match c with
  | ⟨0, _⟩ => rfl
  | ⟨1, _⟩ => rfl

end Indices

/-! ## Layer one -/

/-- Before the positive part, entry `(r, j)` of layer one is the linear stage of row `r` of the aggregated and of
    the node's own features: the reference adds the bias between the two products, the sum is the same. -/
theorem pre1_apply (r : Fin 50000) (j : Fin 128) :
    ReadP.val_main_v28 (F := Ideal) x0 x1 x3 x4 x5 (ix2 r j)
      = Cert.Sage.lin (Cert.Sage.row (agg x1 x0) r) (Cert.Sage.row x0 r) x3 x5 x4 j := by
  rw [val_main_v28_apply, val_main_v26_apply, val_main_v23_apply, val_main_v25_apply, val_main_v24_apply, val_main_v27_apply,
    Ideal.addf_def, Ideal.addf_def]
  refine Eq.trans ?_ (Cert.Sage.lin_bias_between (Cert.Sage.row (agg x1 x0) r) (Cert.Sage.row x0 r) x3 x5 x4 j)
  refine congrArg₂ (· + ·) (congrArg₂ (· + ·) ?_ ?_) ?_
  · exact Finset.sum_congr rfl fun k _ =>
      congrArg₂ (· * ·) (congrArg (agg x1 x0) (lidx23 r k j)) (congrArg x3 (ridx23 r k j))
  · exact congrArg x4 (idxBias1 r j)
  · exact Finset.sum_congr rfl fun k _ =>
      congrArg₂ (· * ·) (congrArg x0 (lidx27 r k j)) (congrArg x5 (ridx27 r k j))

/-- The reference's hidden array is layer one of the aggregated input, the input, the weights, the bias and the mask. -/
theorem hidden_eq : ReadP.val_main_v30 (F := Ideal) x0 x1 x2 x3 x4 x5 = Cert.Sage.layer1 (agg x1 x0) x0 x3 x5 x4 x2 := by
  funext i
  obtain ⟨r, j, rfl⟩ : ∃ (r : Fin 50000) (j : Fin 128), i = ix2 r j := ⟨i 0, i 1, eq_ix2 i⟩
  rw [Cert.Sage.layer1_apply, val_main_v30_apply, val_main_v29_apply, pre1_apply, val_main_call0_v0_apply,
    val_main_call0_cst_apply, Ideal.mulf_def, Ideal.maximumf_def, Ideal.ofBits_def, Ideal.ofBits_zero_f32]
  rfl

/-! ## Layer two -/

/-- Before the log-softmax, entry `(r, j)` of layer two is the linear stage of row `r` of the aggregated hidden
    array and of the hidden array. -/
theorem pre2_apply (r : Fin 50000) (j : Fin 64) :
    ReadP.val_main_v55 (F := Ideal) x0 x1 x2 x3 x4 x5 x6 x7 x8 (ix2 r j)
      = Cert.Sage.lin (Cert.Sage.row (agg x1 (ReadP.val_main_v30 (F := Ideal) x0 x1 x2 x3 x4 x5)) r) (Cert.Sage.row (ReadP.val_main_v30 (F := Ideal) x0 x1 x2 x3 x4 x5) r) x6 x8 x7 j := by
  rw [val_main_v55_apply, val_main_v53_apply, val_main_v50_apply, val_main_v52_apply, val_main_v51_apply, val_main_v54_apply,
    Ideal.addf_def, Ideal.addf_def]
  refine Eq.trans ?_ (Cert.Sage.lin_bias_between (Cert.Sage.row (agg x1 (ReadP.val_main_v30 (F := Ideal) x0 x1 x2 x3 x4 x5)) r) (Cert.Sage.row (ReadP.val_main_v30 (F := Ideal) x0 x1 x2 x3 x4 x5) r) x6 x8 x7 j)
  refine congrArg₂ (· + ·) (congrArg₂ (· + ·) ?_ ?_) ?_
  · exact Finset.sum_congr rfl fun k _ =>
      congrArg₂ (· * ·) ((congrFun (agg_hidden x0 x1 x2 x3 x4 x5) _).trans (congrArg (agg x1 (ReadP.val_main_v30 (F := Ideal) x0 x1 x2 x3 x4 x5)) (lidx50 r k j)))
        (congrArg x6 (ridx50 r k j))
  · exact congrArg x7 (idxBias2 r j)
  · exact Finset.sum_congr rfl fun k _ =>
      congrArg₂ (· * ·) (congrArg (ReadP.val_main_v30 (F := Ideal) x0 x1 x2 x3 x4 x5) (lidx54 r k j)) (congrArg x8 (ridx54 r k j))

/-- For any array, the reduction with a maximum body from `-inf` along a row is the row's maximum. -/
theorem rowMax_of (y : (⟨S50000x64, .f32⟩ : BufTy).Contents (Elt Ideal)) (r : Fin 50000) :
    Host.reduce (FloatOps.maximumf (F := Ideal) (φ := .f32)) y (val_main_call1_cst (F := Ideal)) reducesTo_S50000x64_S50000_d1 h_S_ (ix1 r)
      = Cert.Sage.rowMax (fun j : Fin 64 => y (ix2 r j)) := by
  have h : S50000x64.Reduces [1] S50000 := by decide
  refine (Host.reduce_eq_fold_single (FloatOps.maximumf (F := Ideal) (φ := .f32)) y (val_main_call1_cst (F := Ideal))
    reducesTo_S50000x64_S50000_d1 h h_S_ (ix1 r)).trans ?_
  have hf : (y ∘ h.lift (ix1 r)) = fun j : Fin 64 => y (ix2 r j) := funext fun j => congrArg y (lift_row r h j)
  have hi : (val_main_call1_cst (F := Ideal)) (Shape.Idx.first h_S_) = (⊥ : EReal) :=
    (val_main_call1_cst_apply (F := Ideal) _).trans ((Ideal.ofBits_def _).trans Cert.Sage.negInf_f32)
  exact congrArg₂ (fun b f => Finset.fold max b f (Finset.univ : Finset (Fin 64))) hi hf

/-- The reference's row maximum of the linear stage's array. -/
theorem rowMax_apply (r : Fin 50000) :
    ReadP.val_main_call1_v0 (F := Ideal) x0 x1 x2 x3 x4 x5 x6 x7 x8 (ix1 r)
      = Cert.Sage.rowMax (fun j : Fin 64 => ReadP.val_main_v55 (F := Ideal) x0 x1 x2 x3 x4 x5 x6 x7 x8 (ix2 r j)) := by
  unfold val_main_call1_v0
  exact rowMax_of (ReadP.val_main_v55 (F := Ideal) x0 x1 x2 x3 x4 x5 x6 x7 x8) r

/-- The shifted entry: the linear stage's entry minus its row's maximum (the reference takes the maximum with
    `-inf` once more, which changes nothing). -/
theorem shift_apply (r : Fin 50000) (j : Fin 64) :
    ReadP.val_main_call1_v5 (F := Ideal) x0 x1 x2 x3 x4 x5 x6 x7 x8 (ix2 r j)
      = ReadP.val_main_v55 (F := Ideal) x0 x1 x2 x3 x4 x5 x6 x7 x8 (ix2 r j) - Cert.Sage.rowMax (fun j' : Fin 64 => ReadP.val_main_v55 (F := Ideal) x0 x1 x2 x3 x4 x5 x6 x7 x8 (ix2 r j')) := by
  rw [val_main_call1_v5_apply, val_main_call1_v4_apply, val_main_call1_v3_apply, val_main_call1_v2_apply,
    val_main_call1_v1_apply, val_main_call1_cst_0_apply, idxRowMax r j, rowMax_apply, Ideal.subf_def, Ideal.maximumf_def,
    Ideal.ofBits_def, Cert.Sage.negInf_f32, Cert.Sage.bot_max_rowMax]

/-- The logarithm of the row's sum of exponentials of the shifted entries (the sum starts from zero). -/
theorem logsum_apply (r : Fin 50000) (j : Fin 64) :
    ReadP.val_main_call1_v10 (F := Ideal) x0 x1 x2 x3 x4 x5 x6 x7 x8 (ix2 r j)
      = Ideal.log (∑ j' : Fin 64, Ideal.exp (ReadP.val_main_v55 (F := Ideal) x0 x1 x2 x3 x4 x5 x6 x7 x8 (ix2 r j')
          - Cert.Sage.rowMax (fun j'' : Fin 64 => ReadP.val_main_v55 (F := Ideal) x0 x1 x2 x3 x4 x5 x6 x7 x8 (ix2 r j'')))) := by
  rw [val_main_call1_v10_apply, val_main_call1_v9_apply, val_main_call1_v8_apply, val_main_call1_v7_apply, idxRowSum r j,
    val_main_call1_cst_1_apply, Ideal.hostUnary_log_def, Ideal.ofBits_def, Ideal.ofBits_zero_f32, zero_add]
  refine congrArg Ideal.log (Finset.sum_congr rfl fun j' _ => ?_)
  rw [idxSum r j', val_main_call1_v6_apply, shift_apply, Ideal.hostUnary_exp_def]

/-- The reference's result is layer two of the aggregated hidden array and the hidden array. -/
theorem result_eq_hidden :
    ReadP.val_main_v56 (F := Ideal) x0 x1 x2 x3 x4 x5 x6 x7 x8
      = Cert.Sage.layer2 (agg x1 (ReadP.val_main_v30 (F := Ideal) x0 x1 x2 x3 x4 x5)) (ReadP.val_main_v30 (F := Ideal) x0 x1 x2 x3 x4 x5) x6 x8 x7 := by
  funext i
  obtain ⟨r, j, rfl⟩ : ∃ (r : Fin 50000) (j : Fin 64), i = ix2 r j := ⟨i 0, i 1, eq_ix2 i⟩
  rw [Cert.Sage.layer2_apply, val_main_v56_apply, shift_apply, logsum_apply, Ideal.subf_def]
  simp only [pre2_apply]
  rfl

/-- The reference's result as the two layers of the arguments. -/
theorem result_eq :
    ReadP.val_main_v56 (F := Ideal) x0 x1 x2 x3 x4 x5 x6 x7 x8
      = Cert.Sage.layer2 (agg x1 (Cert.Sage.layer1 (agg x1 x0) x0 x3 x5 x4 x2)) (Cert.Sage.layer1 (agg x1 x0) x0 x3 x5 x4 x2)
          x6 x8 x7 :=
  (result_eq_hidden x0 x1 x2 x3 x4 x5 x6 x7 x8).trans (by rw [hidden_eq])

/-! ## The run -/

/-- The hidden array of a run from the memory `m`, on device `c`: layer one of the launch contents. -/
abbrev H (m : (ℓ : Loc nD τ sig) → Buf (Elt Ideal) ℓ) (c : Dev nD) : (⟨S50000x128, .f32⟩ : BufTy).Contents (Elt Ideal) :=
  Cert.Sage.layer1 (agg (m ((c.tc : Thread nD τ).loc main_arg1)) (m ((c.tc : Thread nD τ).loc main_arg0))) (m ((c.tc : Thread nD τ).loc main_arg0)) (m ((c.tc : Thread nD τ).loc main_arg3)) (m ((c.tc : Thread nD τ).loc main_arg5))
    (m ((c.tc : Thread nD τ).loc main_arg4)) (m ((c.tc : Thread nD τ).loc main_arg2))

/-- The result of a run from the memory `m`, on device `c`: layer two of the hidden array. -/
abbrev out (m : (ℓ : Loc nD τ sig) → Buf (Elt Ideal) ℓ) (c : Dev nD) : (⟨S50000x64, .f32⟩ : BufTy).Contents (Elt Ideal) :=
  Cert.Sage.layer2 (agg (m ((c.tc : Thread nD τ).loc main_arg1)) (H m c)) (H m c) (m ((c.tc : Thread nD τ).loc main_arg6)) (m ((c.tc : Thread nD τ).loc main_arg8)) (m ((c.tc : Thread nD τ).loc main_arg7))

/-- On every device, from any memory with zero counters, every weakly fair execution of the reference terminates with
    its result at the two layers of the launch contents, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v56) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (result_eq _ _ _ _ _ _ _ _ _), (h c).2⟩) (run_stage (F := Ideal) m ρ)

end Cert.ReferenceIdeal.Hand

end
-- ==== Proof.lean ====
/-
  A two-layer GraphSAGE network with mean aggregation: the kernel against its jnp reference, over the extended reals.

  Both programs aggregate along the edges on the host with the same operations: gather each edge's source row, add the
  gathered rows into their destination nodes, divide by the in-degree clamped below at one. Each layer then maps a
  node's aggregated row `mr` and own row `xr` to `Σ_k mr k · Wl k j + Σ_k xr k · Wr k j + b j`; the first layer takes the
  positive part and multiplies by the dropout mask, the second takes the row's log-softmax.

  The kernel computes each layer in a pallas_call over 25 blocks of 2000 nodes: both products first, then the bias. The
  reference adds the bias between the two products, and takes the maximum with minus infinity once more before
  subtracting the row maximum. On the extended reals addition is commutative and associative and the bottom element is
  neutral for the maximum, so the two programs compute one function of the arguments, entry by entry, with no
  finiteness assumption used: the blocks tile the rows, each written entry is the layer's entry for its node
  (Proof/Hidden.lean, Proof/Logits.lean over Proof/Payload.lean), the host stretches are the aggregation
  (Proof/Aggregate.lean), and the reference's 85 host operations read back stage by stage are the same two layers over
  the same aggregation (Proof/RefFold.lean, Proof/RefValue.lean). The ideal pass rewrote nothing, so `preserves` is
  trivially true; the three frames are the generated frame certificates of the two kernel programs and the reference's run
  with its result dropped.
-/
import proofs.«118168_j23656679866485_1_alg».proof.Defs
import proofs.«118168_j23656679866485_1_alg».proof.Proof.Gen.Kernel
import proofs.«118168_j23656679866485_1_alg».proof.Proof.Gen.Kernel.Skeleton
import proofs.«118168_j23656679866485_1_alg».proof.Proof.Gen.Kernel.Launch
import proofs.«118168_j23656679866485_1_alg».proof.Proof.Gen.Kernel.Points
import proofs.«118168_j23656679866485_1_alg».proof.Proof.Gen.Kernel.Frame
import proofs.«118168_j23656679866485_1_alg».proof.Proof.Gen.KernelIdeal
import proofs.«118168_j23656679866485_1_alg».proof.Proof.Gen.KernelIdeal.Skeleton
import proofs.«118168_j23656679866485_1_alg».proof.Proof.Gen.KernelIdeal.Launch
import proofs.«118168_j23656679866485_1_alg».proof.Proof.Gen.KernelIdeal.Points
import proofs.«118168_j23656679866485_1_alg».proof.Proof.Gen.KernelIdeal.Frame
import proofs.«118168_j23656679866485_1_alg».proof.Proof.Gen.ReferenceIdeal
import proofs.«118168_j23656679866485_1_alg».proof.Proof.Gen.Pre_finite_inputs
import proofs.«118168_j23656679866485_1_alg».proof.Proof.KernelValue
import proofs.«118168_j23656679866485_1_alg».proof.Proof.RefValue
import Idealize.ShloMosaic.Adequacy
import Idealize.ShloMosaic.Init

set_option maxRecDepth 16384

noncomputable section

namespace Cert.Proof

open Idealize.ShloMosaic Idealize.SL.Sem

/-- The two programs' aggregations are one function: the same host operations in the same order over the same
    shapes (the records that name the gather's and the scatters' dimensions differ only in their side conditions'
    proofs). Stated at any float values. -/
theorem agg_eq {F : FTy → Type} [FloatOps F] (e : (⟨Cert.KernelIdeal.S2x800000, .i32⟩ : BufTy).Contents (Elt F))
    (X : (⟨Cert.KernelIdeal.S50000x128, .f32⟩ : BufTy).Contents (Elt F)) :
    Cert.ReferenceIdeal.ReadP.val_main_v22 (F := F) X e = Cert.KernelIdeal.Hand.agg (F := F) e X := rfl

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Hand.run_stage (F := Ideal) m ρ)

/-- From memories that agree on the nine arguments both programs end with the network's output on those arguments. -/
theorem algebraic : Cert.algebraic_KernelIdeal_ReferenceIdeal := by
  intro m ρ m' ρ' _ hagree
  refine ⟨fun c => Cert.KernelIdeal.Hand.outputOf m c, Cert.KernelIdeal.Hand.run m ρ, ?_⟩
  refine (θ_run Cert.ReferenceIdeal.defs _ _).mono (fun _ h c => ⟨(h c).1.trans ?_, (h c).2⟩)
    (Cert.ReferenceIdeal.Hand.run m' ρ')
  obtain ⟨a0, a1, a2, a3, a4, a5, a6, a7, a8⟩ := hagree c
  dsimp only [Cert.ReferenceIdeal.Hand.out, Cert.ReferenceIdeal.Hand.H, Cert.ReferenceIdeal.Hand.agg]
  rw [a0, a1, a2, a3, a4, a5, a6, a7, a8]
  have hagg : ∀ X : (⟨Cert.KernelIdeal.S50000x128, .f32⟩ : BufTy).Contents (Elt Ideal),
      Cert.ReferenceIdeal.ReadP.val_main_v22 (F := Ideal) X (m ((c.tc : Thread Cert.KernelIdeal.nD Cert.KernelIdeal.τ).loc Cert.KernelIdeal.main_arg1))
        = Cert.KernelIdeal.Hand.agg (F := Ideal) (m ((c.tc : Thread Cert.KernelIdeal.nD Cert.KernelIdeal.τ).loc Cert.KernelIdeal.main_arg1)) X := fun X => agg_eq _ X
  rw [hagg, hagg]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
